-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S2048x4096 : Shape := ⟨2, ![2048, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S2048x4096 32) (main_arg2 : FVec F S4096x1 .f32) (main_arg3 : FVec F S4096x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S2048x4096 : Shape := ⟨2, ![2048, 4096]⟩
abbrev S4096x1 : Shape := ⟨2, ![4096, 1]⟩
abbrev S4096 : Shape := ⟨1, ![4096]⟩
abbrev S8192x4096 : Shape := ⟨2, ![8192, 4096]⟩
abbrev S4096x4096 : Shape := ⟨2, ![4096, 4096]⟩
abbrev S256x4096 : Shape := ⟨2, ![256, 4096]⟩
abbrev S512x4096 : Shape := ⟨2, ![512, 4096]⟩
abbrev S256x1x4096 : Shape := ⟨3, ![256, 1, 4096]⟩
abbrev S256x2x4096 : Shape := ⟨3, ![256, 2, 4096]⟩
abbrev S1x4096 : Shape := ⟨2, ![1, 4096]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S2048x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .f32⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x4096, .f32⟩
  | .hbm, ⟨13, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | .local _ .vmem, ⟨17, _⟩ => ⟨S1024x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x1x4096 : S256x4096.ShapeCasts S256x1x4096
  concatenates_S256x1x4096_S256x1x4096_S256x2x4096_d1 : Shape.Concatenates [S256x1x4096, S256x1x4096] S256x2x4096 1
  shapeCasts_S256x2x4096_S512x4096 : S256x2x4096.ShapeCasts S512x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  shapeCasts_S4096x1_S1x4096 : S4096x1.ShapeCasts S1x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  shapeCasts_S8192x4096_S4x2048x4096 : S8192x4096.ShapeCasts S4x2048x4096
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .i32 = 32 ∨ (Rect.block (s := S2048x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x4096.size a
  hwx1_3 : ∀ i : grid1.Coords, EltTy.bits .f32 = 32 ∨ (Rect.block (s := S1x4096) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x4096.size a
  hwx1_4 : ∀ i : grid1.Coords, EltTy.bits .f32 = 32 ∨ (Rect.block (s := S1x4096) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x2048.size a ≤ S8192x4096.size a
  hwx1_5 : ∀ i : grid1.Coords, EltTy.bits .f32 = 32 ∨ (Rect.block (s := S8192x4096) S1024x2048.size (cc1_transform_5 i) (hinb1_5 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S2048x4096 : Shape := ⟨2, ![2048, 4096]⟩
abbrev S4096x1 : Shape := ⟨2, ![4096, 1]⟩
abbrev S4096 : Shape := ⟨1, ![4096]⟩
abbrev S_ : Shape := ⟨0, ![]⟩
abbrev S2048x1x4096 : Shape := ⟨3, ![2048, 1, 4096]⟩
abbrev S2048x2x4096 : Shape := ⟨3, ![2048, 2, 4096]⟩
abbrev S4096x4096 : Shape := ⟨2, ![4096, 4096]⟩
abbrev S1x4096 : Shape := ⟨2, ![1, 4096]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2048x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S2048x4096, .i32⟩
  | .hbm, ⟨7, _⟩ => ⟨S2048x4096, .i32⟩
  | .hbm, ⟨8, _⟩ => ⟨S_, .i32⟩
  | .hbm, ⟨9, _⟩ => ⟨S2048x4096, .i32⟩
  | .hbm, ⟨10, _⟩ => ⟨S2048x4096, .i32⟩
  | .hbm, ⟨11, _⟩ => ⟨S_, .i32⟩
  | .hbm, ⟨12, _⟩ => ⟨S2048x4096, .i32⟩
  | .hbm, ⟨13, _⟩ => ⟨S2048x4096, .i32⟩
  | .hbm, ⟨14, _⟩ => ⟨S2048x1x4096, .i32⟩
  | .hbm, ⟨15, _⟩ => ⟨S2048x1x4096, .i32⟩
  | .hbm, ⟨16, _⟩ => ⟨S2048x2x4096, .i32⟩
  | .hbm, ⟨17, _⟩ => ⟨S4096x4096, .i32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S2048x4096_S2048x1x4096_0_2 : S2048x4096.BroadcastsInDim S2048x1x4096 (![0, 2] : Fin 2 → Fin S2048x1x4096.rank)
  concatenates_S2048x1x4096_S2048x1x4096_S2048x2x4096_d1 : Shape.Concatenates [S2048x1x4096, S2048x1x4096] S2048x2x4096 1
  shapeCasts_S2048x2x4096_S4096x4096 : S2048x2x4096.ShapeCasts S4096x4096
  transposes_S4096x1_S1x4096_1_0 : S4096x1.Transposes [1, 0] S1x4096
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.KI.R0.lean ====
import proofs.«404820_j10101763080230_2_alg».proof.Proof.Gen.KernelIdeal.Launch
import proofs.«404820_j10101763080230_2_alg».proof.Proof.Gen.KernelIdeal.Skeleton
import proofs.«404820_j10101763080230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_q : Rect S256x4096 := Rect.unit (s := S256x4096) ![0, 0] S256x4096.size inb_S256x4096_S256x4096_0_0
abbrev r0_w : Rect S512x4096 := Rect.unit (s := S512x4096) ![0, 0] S512x4096.size inb_S512x4096_S512x4096_0_0

/-- What the unpack body leaves in the output block: its one whole-block store. -/
def out0_1 (x0 : Vec F S256x4096 .i32) : Vec F S512x4096 .bf16 :=
  View.canon [⟨r0_w, k0_pay1 (View.ld x0 r0_q)⟩]

/-- Input window 0's current staging buffer holds its block at every point, fetched there or not, for any proof
    data whose array is `V`'s and whose body leaves the block in place: the window is uncut and never idle, so an
    unfetched point finds the index where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is the whole 512x4096 rectangle, so it covers every index of the output block. -/
theorem cover0_1 (p0 : Vec F S512x4096 .bf16) (y : S512x4096.Idx) :
    ∃ pc ∈ ([⟨r0_w, p0⟩] : List (View.Piece (Elt F) S512x4096 .bf16)), y ∈ pc.1.set :=
  View.cover_of_tiled [⟨r0_w, p0⟩] S512x4096.size (by rfl) y

set_option maxHeartbeats 1000000 in
/-- The unpack body on whole staging memrefs, the packed input's at contents `x0` and the output's at anything: it
    reads the packed block, reads the output block (a value nothing uses), stores the unpacked block over the whole
    output, and reaches the continuation with the input as it was and the output at `out0_1 x0`. The grid
    coordinates `i` are not read. -/
theorem sound_kernel0 (c : Dev nD) (E : Set ℕ) (i : grid0.Coords) (arg1 : Memref sig .tc .vmem S256x4096 .i32) (harg1 : arg1.IsWhole)
    (arg2 : Memref sig .tc .vmem S512x4096 .bf16) (harg2 : arg2.IsWhole)
    (x0 : Vec F S256x4096 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__unpack_kernel i arg1 harg1 arg2 harg2) K := by
  simp only [cc0__unpack_kernel_eq_skeleton]; unfold cc0__unpack_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the unpack pipeline on core `c`: the arrays as the region finds them; after the body at point
    `t` the input's buffer at its block and the output's at the unpacking of that block; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t) : (dat0 V c).owed t = 0 := by
  dsimp only [dat0]
theorem Phi_eq0 (c : Dev nD) (t : Fin (cfg0.N + 1)) : (dat0 V c).Φ t = Pipeline.ΦA spec0 c := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The packed input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- Nothing is known of the pairs the core's waits have recorded: the bound is everything. -/
theorem recorded_eq0 (c : Dev nD) (t : Fin (cfg0.N + 1)) : (dat0 V c).recorded t = Set.univ := rfl

end Cert.KernelIdeal.Hand

end
-- ==== Proof.KI.R1Runs.lean ====
import proofs.«404820_j10101763080230_2_alg».proof.Proof.Gen.KernelIdeal.Launch
import proofs.«404820_j10101763080230_2_alg».proof.Proof.Gen.KernelIdeal.Skeleton
import proofs.«404820_j10101763080230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the matmul kernel): what its three control cases share

The grid is 8 × 2 × 8; its last axis `k = t mod 8` is the reduction axis. The body resets the accumulator and the
row-sum column when `k = 0`, adds the point's partial product and partial row sums at every point, and writes the
output block (accumulator minus row-sum × zero point, scaled, plus bias) when `k = 7`. -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the
    pipeline does not fetch, the block index has not moved since the point that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the
    pipeline does not fetch, the block index has not moved since the point that did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the
    pipeline does not fetch, the block index has not moved since the point that did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the
    pipeline does not fetch, the block index has not moved since the point that did. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where the
    pipeline does not fetch, the block index has not moved since the point that did. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form -/

/-- The reset condition `k = 0` as the body computes it from the reduction coordinate. -/
abbrev cond1_0 (i : grid1.Coords) : Prop := (Scalar.cmpi .ne (Scalar.extui (Scalar.cmpi .eq (BitVec.ofNat 32 (i 2).val) 0#32)) 0#32) = 1#1
/-- It holds exactly at the points with `t mod 8 = 0`. -/
theorem hcond1_0 : ∀ t : Fin cfg1.N, cond1_0 (grid1.coords t) ↔ t.val % 8 = 0 :=
  (by decide +kernel : ∀ t : Fin grid1.N, cond1_0 (grid1.coords t) ↔ t.val % 8 = 0)

/-- The write-out condition `k = 7` as the body computes it. -/
abbrev cond1_1 (i : grid1.Coords) : Prop := k1_cond2 i = 1#1
/-- It holds exactly at the points with `t mod 8 = 7`. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The five input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where `k = 0` the output window is idle (nothing is stored into it) and its block is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- The same where `0 < k < 7`. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where `k = 7` the output window is live: the body stores the whole block. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated (which one does not matter). -/
abbrev VO1_5 : View sig .tc .vmem S1024x2048 .f32 := (Memref.whole cc1_stg5_0 : Memref sig .tc .vmem S1024x2048 .f32).view
/-- Each window's current staging memref at point `t`, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x2048 .f32 := win1_5.stage (cfg1.slots t 5)
abbrev hs1_5 (t : Fin cfg1.N) : (ms1_5 t).IsWhole := hstage1_5 ((cfg1.slots t 5).cast nbuf1_5)
/-- The two scratch operands: the accumulator and the row-sum column, whole scoped buffers of the kernel's own. -/
abbrev scM1_0 : Memref sig .tc .vmem S1024x2048 .f32 := Memref.whole cc1_scratch0
abbrev scM1_1 : Memref sig .tc .vmem S1024x1 .f32 := Memref.whole cc1_scratch1
/-- The same as views: what the scratch buffers hold is stated through them. -/
abbrev VS1_0 : View sig .tc .vmem S1024x2048 .f32 := scM1_0.view
abbrev VS1_1 : View sig .tc .vmem S1024x1 .f32 := scM1_1.view

/-- The region's invariant as the launch hands it over: the four foreign staging buffers and the two scratch
    operands at some contents each, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.KI.R1RunA.lean ====
import proofs.«404820_j10101763080230_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `k = 0` (the reset is taken, the write-out is not), on any whole memrefs: the x block and the w
    block at their contents, the three rows and the output block at any contents handed back untouched, the accumulator
    and the row-sum column entering at anything. It ends with the inputs as they were and each scratch buffer holding
    the pieces its stores wrote (zeros, then zeros plus this point's contribution); the piece lists are found by
    running the body. -/
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) :
    Σ' (L5 : List (View.Piece (Elt F) S1024x2048 .f32)) (LS0 : List (View.Piece (Elt F) S1024x2048 .f32)), { LS1 : List (View.Piece (Elt F) S1024x1 .f32) //
      ∀ (x2 x3 x4 : Vec F S1x2048 .f32) (xi5 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨[], ?_, ?_, fun x2 x3 x4 xi5 E K => ?run⟩
  case run =>
    simp only [cc1__matmul_kernel_eq_skeleton]; unfold cc1__matmul_kernel_skel
    unfold owns
    iintro ⟨⟨%f0, %hf0, H0⟩, ⟨%f1, %hf1, H1⟩, H2, H3, H4, H5, ⟨%ds0, %fs0, -, HS0⟩, ⟨%ds1, %fs1, -, HS1⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [H3]; · iexact H3
    isplitl [H4]; · iexact H4
    isplitl [H5]; · iexact H5
    isplitl [HS0]; · iexists _; iexact HS0
    iexists _; iexact HS1

end Cert.KernelIdeal.Hand

end
-- ==== Proof.KI.R1RunB.lean ====
import proofs.«404820_j10101763080230_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `0 < k < 7` (neither the reset nor the write-out is taken), on any whole memrefs: the x block and
    the w block at their contents, the three rows and the output block at any contents handed back untouched, the
    accumulator and the row-sum column entering at what the point before left. It ends with the inputs as they were and
    each scratch buffer holding the one piece its store wrote (what it held plus this point's contribution). -/
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) :
    Σ' (L5 : List (View.Piece (Elt F) S1024x2048 .f32)) (LS0 : List (View.Piece (Elt F) S1024x2048 .f32)), { LS1 : List (View.Piece (Elt F) S1024x1 .f32) //
      ∀ (x2 x3 x4 : Vec F S1x2048 .f32) (xi5 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨[], ?_, ?_, fun x2 x3 x4 xi5 E K => ?run⟩
  case run =>
    simp only [cc1__matmul_kernel_eq_skeleton]; unfold cc1__matmul_kernel_skel
    unfold owns
    iintro ⟨⟨%f0, %hf0, H0⟩, ⟨%f1, %hf1, H1⟩, H2, H3, H4, H5, ⟨%fs0, %hfs0, HS0⟩, ⟨%fs1, %hfs1, HS1⟩, Hk⟩
    obtain rfl := harg3.eq_unread hf0; obtain rfl := harg4.eq_unread hf1
    obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [H3]; · iexact H3
    isplitl [H4]; · iexact H4
    isplitl [H5]; · iexact H5
    isplitl [HS0]; · iexists _; iexact HS0
    iexists _; iexact HS1

end Cert.KernelIdeal.Hand

end
-- ==== Proof.KI.R1RunC.lean ====
import proofs.«404820_j10101763080230_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `k = 7` (the write-out is taken, the reset is not), on any whole memrefs: all five input blocks at
    their contents, the output block entering at anything, the accumulator and the row-sum column at what the point
    before left. It ends with the inputs as they were, each scratch buffer holding the one piece its store wrote, and
    the output block holding the one piece the write-out stored (computed from the updated scratch buffers). -/
noncomputable def kernelRun1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) :
    Σ' (L5 : List (View.Piece (Elt F) S1024x2048 .f32)) (LS0 : List (View.Piece (Elt F) S1024x2048 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨?_, ?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1
    obtain rfl := harg5.eq_unread hf2; obtain rfl := harg6.eq_unread hf3; obtain rfl := harg7.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.KernelIdeal.Hand

end
-- ==== Proof.KI.R1.lean ====
import proofs.«404820_j10101763080230_2_alg».proof.Proof.KI.R1RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the matmul kernel): what each point leaves, and the region's proof data

The reduction coordinate is `k = t mod 8`. With `x` the point's 1024 × 512 block of the activations and `w` its
512 × 2048 block of the unpacked weights, every point adds `x · w` to the accumulator and the row sums of `x` to the
row-sum column; the point with `k = 0` starts both from zero, and the point with `k = 7` stores
`(acc − rowsum · zero_point) · scale + bias` into the output block. Between the points of one reduction the two
scratch buffers carry the running sums. -/

/-! ## What each control case leaves, on any memrefs -/

/-- Where `k = 0` nothing is stored into the output block (the window is idle there and not written back): no pieces. A
    placeholder nothing consults, since at these points the window's buffer is handed back as it was found. -/
def out1_A_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) : Vec F S1024x2048 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 x0 x1).1)

/-- Where `k = 0` the stores into the accumulator are of the whole 1024 × 2048 buffer, so the pieces cover it. -/
theorem scover1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) (y : S1024x2048.Idx) :
    ∃ pc ∈ (kernelRun1_A c i arg3 harg3 arg4 harg4 arg5 harg5 arg6 harg6 arg7 harg7 arg8 harg8 arg9 harg9 arg10 harg10 hc0 hc1 x0 x1).2.1, y ∈ pc.1.set :=
  View.cover_of_tiledL (kernelRun1_A c i arg3 harg3 arg4 harg4 arg5 harg5 arg6 harg6 arg7 harg7 arg8 harg8 arg9 harg9 arg10 harg10 hc0 hc1 x0 x1).2.1 S1024x2048.size (by sl_kernel_rfl) y

/-- What the point leaves in the accumulator where `k = 0`: its pieces read back. -/
def sout1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) : Vec F S1024x2048 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1).2.1)

/-- Where `k = 0` the stores into the row-sum column are of the whole 1024 × 1 buffer, so the pieces cover it. -/
theorem scover1_A_1 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) (y : S1024x1.Idx) :
    ∃ pc ∈ (kernelRun1_A c i arg3 harg3 arg4 harg4 arg5 harg5 arg6 harg6 arg7 harg7 arg8 harg8 arg9 harg9 arg10 harg10 hc0 hc1 x0 x1).2.2.1, y ∈ pc.1.set :=
  View.cover_of_tiledL (kernelRun1_A c i arg3 harg3 arg4 harg4 arg5 harg5 arg6 harg6 arg7 harg7 arg8 harg8 arg9 harg9 arg10 harg10 hc0 hc1 x0 x1).2.2.1 S1024x1.size (by sl_kernel_rfl) y

/-- What the point leaves in the row-sum column where `k = 0`: its pieces read back. -/
def sout1_A_1 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1).2.2.1)

/-- Where `0 < k < 7` nothing is stored into the output block (the window is idle there and not written back): no pieces. A
    placeholder nothing consults, since at these points the window's buffer is handed back as it was found. -/
def out1_B_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) : Vec F S1024x2048 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 x0 x1 xs0 xs1).1)

/-- Where `0 < k < 7` the stores into the accumulator are of the whole 1024 × 2048 buffer, so the pieces cover it. -/
theorem scover1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) (y : S1024x2048.Idx) :
    ∃ pc ∈ (kernelRun1_B c i arg3 harg3 arg4 harg4 arg5 harg5 arg6 harg6 arg7 harg7 arg8 harg8 arg9 harg9 arg10 harg10 hc0 hc1 x0 x1 xs0 xs1).2.1, y ∈ pc.1.set :=
  View.cover_of_tiledL (kernelRun1_B c i arg3 harg3 arg4 harg4 arg5 harg5 arg6 harg6 arg7 harg7 arg8 harg8 arg9 harg9 arg10 harg10 hc0 hc1 x0 x1 xs0 xs1).2.1 S1024x2048.size (by sl_kernel_rfl) y

/-- What the point leaves in the accumulator where `0 < k < 7`: its pieces read back. -/
def sout1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) : Vec F S1024x2048 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 xs0 xs1).2.1)

/-- Where `0 < k < 7` the stores into the row-sum column are of the whole 1024 × 1 buffer, so the pieces cover it. -/
theorem scover1_B_1 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) (y : S1024x1.Idx) :
    ∃ pc ∈ (kernelRun1_B c i arg3 harg3 arg4 harg4 arg5 harg5 arg6 harg6 arg7 harg7 arg8 harg8 arg9 harg9 arg10 harg10 hc0 hc1 x0 x1 xs0 xs1).2.2.1, y ∈ pc.1.set :=
  View.cover_of_tiledL (kernelRun1_B c i arg3 harg3 arg4 harg4 arg5 harg5 arg6 harg6 arg7 harg7 arg8 harg8 arg9 harg9 arg10 harg10 hc0 hc1 x0 x1 xs0 xs1).2.2.1 S1024x1.size (by sl_kernel_rfl) y

/-- What the point leaves in the row-sum column where `0 < k < 7`: its pieces read back. -/
def sout1_B_1 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 xs0 xs1).2.2.1)

/-- Where `k = 7` the one store into the output block is of the whole block, so its piece covers the block. -/
theorem cover1_C_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) (y : S1024x2048.Idx) :
    ∃ pc ∈ (kernelRun1_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).1 S1024x2048.size (by sl_kernel_rfl) y

/-- What the point leaves in the output block where `k = 7`: its piece read back. -/
def out1_C_5 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) : Vec F S1024x2048 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 x0 x1 x2 x3 x4 xs0 xs1).1)

/-- Where `k = 7` the stores into the accumulator are of the whole 1024 × 2048 buffer, so the pieces cover it. -/
theorem scover1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) (y : S1024x2048.Idx) :
    ∃ pc ∈ (kernelRun1_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).2.1 S1024x2048.size (by sl_kernel_rfl) y

/-- What the point leaves in the accumulator where `k = 7`: its pieces read back. -/
def sout1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) : Vec F S1024x2048 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 xs0 xs1).2.1)

/-- Where `k = 7` the stores into the row-sum column are of the whole 1024 × 1 buffer, so the pieces cover it. -/
theorem scover1_C_1 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) (y : S1024x1.Idx) :
    ∃ pc ∈ (kernelRun1_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What the point leaves in the row-sum column where `k = 7`: its pieces read back. -/
def sout1_C_1 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 x4 xs0 xs1).2.2.1)

/-! ## What the buffers hold after each point -/

/-- THE ACCUMULATION, point by point: after the body at position `n`, (the output block's staging buffer, the
    accumulator, the row-sum column). A point with `n mod 8 = 0` starts afresh and depends on no earlier point; any other
    point runs over what the point before left in the two scratch buffers; the point with `n mod 8 = 7` also writes the
    output block. No point has `n mod 8` equal to both 0 and 7. -/
def outsAt1 (c : Dev nD) : (n : ℕ) → n < cfg1.N → Vec F S1024x2048 .f32 × Vec F S1024x2048 .f32 × Vec F S1024x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by have hN : n + 1 < 128 := lt_of_lt_of_eq hn (show cfg1.N = 128 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

/-- `outsAt1` at a point with `k = 0`. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point with `0 < k < 7`: over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 7`: over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point what the launch hands over (every scoped buffer at
    anything); afterwards the four foreign staging buffers at anything, the accumulator and the row-sum column at what
    the point before left in them, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

/-- After point `n`: both scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl

/-- Before a point that is not the first: both scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

/-- The proof data of region 1 on core `c`: the arrays as the region finds them; after the body at a point each
    input's buffer still at its block, the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t) : (dat1 V c).owed t = 0 := by
  dsimp only [dat1]
theorem recorded_eq1 (c : Dev nD) (t : Fin (cfg1.N + 1)) : (dat1 V c).recorded t = Set.univ := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, nothing owed, and each window's current staging buffer
    at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The five input buffers hold their blocks; `t mod 8` says which control case the point is
    in, and that case's run applies. The invariant hands the body the two scratch buffers — at anything before the
    first point, at what the point before left otherwise (a point with `k = 0` overwrites them whatever they hold) —
    and takes them back at this point's contents, the stores covering each buffer whole. Where `k < 7` the output
    window is idle and its buffer goes back as found; where `k = 7` it goes back at the stored block. The four foreign
    staging buffers and the generator register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · -- k = 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t)).2.2.2 (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HE0 HE1 HE2 HE3 HS0 HS1 Hg]
        · isplitl [HE0 HE1 HE2 HE3 HS0 HS1]
          · isplitl [HE0]; · iexact HE0
            isplitl [HE1]; · iexact HE1
            isplitl [HE2]; · iexact HE2
            isplitl [HE3]; · iexact HE3
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t)).2.2.2 (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HE0 HE1 HE2 HE3 HS0 HS1 Hg]
        · isplitl [HE0 HE1 HE2 HE3 HS0 HS1]
          · isplitl [HE0]; · iexact HE0
            isplitl [HE1]; · iexact HE1
            isplitl [HE2]; · iexact HE2
            isplitl [HE3]; · iexact HE3
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- k = 7
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0 sout1_C_1; (try dsimp only)
      by_cases hz : t.val = 0
      · exfalso; omega
      · rw [PhiS1_castSucc V c t, PhiS1_pos V c _ _ hz]
        iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HE0 HE1 HE2 HE3 HS0 HS1 Hg]
        · isplitl [HE0 HE1 HE2 HE3 HS0 HS1]
          · isplitl [HE0]; · iexact HE0
            isplitl [HE1]; · iexact HE1
            isplitl [HE2]; · iexact HE2
            isplitl [HE3]; · iexact HE3
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _ _ _ _)
    · -- 0 < k < 7
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) _ _).2.2.2 (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HE0 HE1 HE2 HE3 HS0 HS1 Hg]
        · isplitl [HE0 HE1 HE2 HE3 HS0 HS1]
          · isplitl [HE0]; · iexact HE0
            isplitl [HE1]; · iexact HE1
            isplitl [HE2]; · iexact HE2
            isplitl [HE3]; · iexact HE3
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: what the two scratch buffers hold is
    forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HE0, HE1, HE2, HE3, HS0, HS1⟩, Hg⟩
  isplitl [HE0 HE1 HE2 HE3 HS0 HS1]
  · isplitl [HE0]; · iexact HE0
    isplitl [HE1]; · iexact HE1
    isplitl [HE2]; · iexact HE2
    isplitl [HE3]; · iexact HE3
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi1_out V c _ (by rw [Fin.val_last]; have : cfg1.N = 128 := N_1; omega)

/-! ## The contents each case leaves, computed

Each buffer's contents after a case is the read-back of the pieces that case's stores wrote. Every store of this body
is of a whole buffer, so the last store into a buffer decides its contents, and every load is of a whole buffer, so it
reads the buffer's contents (what the last store before it wrote, or what the buffer held on entry). -/

/-- The zero offsets of a whole two-axis rectangle, spelt as the body's stores and loads spell them. -/
theorem r1_hz : (![0, 0] : Fin 2 → Nat) = fun _ => 0 := funext fun a => by fin_cases a <;> rfl

/-- `k = 0`, the accumulator: zero, then zero plus `x · w`. -/
theorem sout1_A_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) :
    sout1_A_0 c i arg3 harg3 arg4 harg4 arg5 harg5 arg6 harg6 arg7 harg7 arg8 harg8 arg9 harg9 arg10 harg10 hc0 hc1 x0 x1 = k1_pay5 x0 (k1_pay1 (F := F)) x1 := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1)]
  unfold kernelRun1_A
  dsimp only
  sl_unfold_words
  rw [View.canon_cons_unit_zero (S := S1024x2048) r1_hz, View.readCov_unit_zero (S := S1024x2048) _ r1_hz]
  simp only [View.readAt_eq_ld, harg3.read_unread, harg4.read_unread, View.ld_unit_zero (S := S1024x512) r1_hz, View.ld_unit_zero (S := S512x2048) r1_hz]

/-- `k = 0`, the row-sum column: zero, then zero plus the row sums of `x`. -/
theorem sout1_A_1_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : cond1_0 i) (hc1 : ¬cond1_1 i)
    (x0 : Vec F S1024x512 .f32) (x1 : Vec F S512x2048 .bf16) :
    sout1_A_1 c i arg3 harg3 arg4 harg4 arg5 harg5 arg6 harg6 arg7 harg7 arg8 harg8 arg9 harg9 arg10 harg10 hc0 hc1 x0 x1 = k1_pay4 x0 (k1_pay2 (F := F)) := by
  unfold sout1_A_1
  rw [View.read_writes_eq_canon _ _ _ (scover1_A_1 c i arg3 harg3 arg4 harg4 arg5 harg5 arg6 harg6 arg7 harg7 arg8 harg8 arg9 harg9 arg10 harg10 hc0 hc1 x0 x1)]
  unfold kernelRun1_A
  dsimp only
  sl_unfold_words
  rw [View.canon_cons_unit_zero (S := S1024x1) r1_hz, View.readCov_unit_zero (S := S1024x1) _ r1_hz]
  simp only [View.readAt_eq_ld, harg3.read_unread, View.ld_unit_zero (S := S1024x512) r1_hz]

/-- `0 < k < 7`, the accumulator: what it held plus `x · w`. -/
theorem sout1_B_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) :
    sout1_B_0 c i arg3 harg3 arg4 harg4 arg5 harg5 arg6 harg6 arg7 harg7 arg8 harg8 arg9 harg9 arg10 harg10 hc0 hc1 x0 x1 xs0 xs1 = k1_pay5 x0 xs0 x1 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 xs0 xs1)]
  unfold kernelRun1_B
  dsimp only
  sl_unfold_words
  rw [View.canon_unit_zero (S := S1024x2048) r1_hz]
  simp only [View.readAt_eq_ld, harg3.read_unread, harg4.read_unread, harg9.read_unread, View.ld_unit_zero (S := S1024x512) r1_hz, View.ld_unit_zero (S := S512x2048) r1_hz, View.ld_unit_zero (S := S1024x2048) r1_hz]

/-- `0 < k < 7`, the row-sum column: what it held plus the row sums of `x`. -/
theorem sout1_B_1_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : ¬cond1_1 i)
    (x0 : Vec F S1024x512 .f32) (x1 : Vec F S512x2048 .bf16) (xs0 : Vec F S1024x2048 .f32) (xs1 : Vec F S1024x1 .f32) :
    sout1_B_1 c i arg3 harg3 arg4 harg4 arg5 harg5 arg6 harg6 arg7 harg7 arg8 harg8 arg9 harg9 arg10 harg10 hc0 hc1 x0 x1 xs0 xs1 = k1_pay4 x0 xs1 := by
  unfold sout1_B_1
  rw [View.read_writes_eq_canon _ _ _ (scover1_B_1 c i arg3 harg3 arg4 harg4 arg5 harg5 arg6 harg6 arg7 harg7 arg8 harg8 arg9 harg9 arg10 harg10 hc0 hc1 x0 x1 xs0 xs1)]
  unfold kernelRun1_B
  dsimp only
  sl_unfold_words
  rw [View.canon_unit_zero (S := S1024x1) r1_hz]
  simp only [View.readAt_eq_ld, harg3.read_unread, harg10.read_unread, View.ld_unit_zero (S := S1024x512) r1_hz, View.ld_unit_zero (S := S1024x1) r1_hz]

/-- `k = 7`, the accumulator: what it held plus `x · w`. -/
theorem sout1_C_0_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) :
    sout1_C_0 c i arg3 harg3 arg4 harg4 arg5 harg5 arg6 harg6 arg7 harg7 arg8 harg8 arg9 harg9 arg10 harg10 hc0 hc1 x0 x1 x2 x3 x4 xs0 xs1 = k1_pay5 x0 xs0 x1 := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero (S := S1024x2048) r1_hz]
  simp only [View.readAt_eq_ld, harg3.read_unread, harg4.read_unread, harg9.read_unread, View.ld_unit_zero (S := S1024x512) r1_hz, View.ld_unit_zero (S := S512x2048) r1_hz, View.ld_unit_zero (S := S1024x2048) r1_hz]

/-- `k = 7`, the row-sum column: what it held plus the row sums of `x`. -/
theorem sout1_C_1_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) :
    sout1_C_1 c i arg3 harg3 arg4 harg4 arg5 harg5 arg6 harg6 arg7 harg7 arg8 harg8 arg9 harg9 arg10 harg10 hc0 hc1 x0 x1 x2 x3 x4 xs0 xs1 = k1_pay4 x0 xs1 := by
  unfold sout1_C_1
  rw [View.read_writes_eq_canon _ _ _ (scover1_C_1 c i arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero (S := S1024x1) r1_hz]
  simp only [View.readAt_eq_ld, harg3.read_unread, harg10.read_unread, View.ld_unit_zero (S := S1024x512) r1_hz, View.ld_unit_zero (S := S1024x1) r1_hz]

/-- `k = 7`, the output block: the write-out of the two scratch buffers AS THIS POINT LEAVES THEM, with the zero-point
    row, the scale row and the bias row. -/
theorem out1_C_5_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x1 .f32) (harg10 : arg10.IsWhole) (hc0 : ¬cond1_0 i) (hc1 : cond1_1 i)
    (x0 : Vec F S1024x512 .f32) (x1 : Vec F S512x2048 .bf16) (x2 x3 x4 : Vec F S1x2048 .f32) (xs0 : Vec F S1024x2048 .f32) (xs1 : Vec F S1024x1 .f32) :
    out1_C_5 c i arg3 harg3 arg4 harg4 arg5 harg5 arg6 harg6 arg7 harg7 arg8 harg8 arg9 harg9 arg10 harg10 hc0 hc1 x0 x1 x2 x3 x4 xs0 xs1
      = k1_pay6 (sout1_C_0 c i arg3 harg3 arg4 harg4 arg5 harg5 arg6 harg6 arg7 harg7 arg8 harg8 arg9 harg9 arg10 harg10 hc0 hc1 x0 x1 x2 x3 x4 xs0 xs1) (sout1_C_1 c i arg3 harg3 arg4 harg4 arg5 harg5 arg6 harg6 arg7 harg7 arg8 harg8 arg9 harg9 arg10 harg10 hc0 hc1 x0 x1 x2 x3 x4 xs0 xs1) x3 x2 x4 := by
  rw [sout1_C_0_eq c i arg3 harg3 arg4 harg4 arg5 harg5 arg6 harg6 arg7 harg7 arg8 harg8 arg9 harg9 arg10 harg10 hc0 hc1 x0 x1 x2 x3 x4 xs0 xs1, sout1_C_1_eq c i arg3 harg3 arg4 harg4 arg5 harg5 arg6 harg6 arg7 harg7 arg8 harg8 arg9 harg9 arg10 harg10 hc0 hc1 x0 x1 x2 x3 x4 xs0 xs1]
  unfold out1_C_5
  rw [View.read_writes_eq_canon _ _ _ (cover1_C_5 c i arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero (S := S1024x2048) r1_hz, View.readCov_unit_zero (S := S1024x2048) _ r1_hz, View.readCov_unit_zero (S := S1024x1) _ r1_hz]
  simp only [View.readAt_eq_ld, harg3.read_unread, harg4.read_unread, harg5.read_unread, harg6.read_unread, harg7.read_unread, harg9.read_unread, harg10.read_unread, View.ld_unit_zero (S := S1024x512) r1_hz, View.ld_unit_zero (S := S512x2048) r1_hz, View.ld_unit_zero (S := S1x2048) r1_hz, View.ld_unit_zero (S := S1024x2048) r1_hz, View.ld_unit_zero (S := S1024x1) r1_hz]

/-! What each point leaves, piece by piece (t.val % 8 is the reduction coordinate k). -/

/-- At the first point of a reduction the accumulator is left at zero plus the point's partial product. -/
theorem acc_first (c : Dev nD) (t : Fin cfg1.N) (h0 : t.val % 8 = 0) :
    (outsAt1 V c t.val t.isLt).2.1 = k1_pay5 (iblk1 V c 0 t) (k1_pay1 (F := F)) (iblk1 V c 1 t) := by
  have h1 : ¬t.val % 8 = 7 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t)

/-- At any later point it is left at what the point before left plus the point's partial product. -/
theorem acc_next (c : Dev nD) (t : Fin cfg1.N) (h0 : ¬ t.val % 8 = 0) :
    (outsAt1 V c t.val t.isLt).2.1 = k1_pay5 (iblk1 V c 0 t) (outsAt1 V c (t.val - 1) (Nat.lt_of_le_of_lt (Nat.sub_le _ _) t.isLt)).2.1 (iblk1 V c 1 t) := by
  by_cases h1 : t.val % 8 = 7
  · rw [outsAt1_C V c t h0 h1]; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- At the first point of a reduction the row-sum column is left at zero plus the row sums of the point's x block. -/
theorem xsum_first (c : Dev nD) (t : Fin cfg1.N) (h0 : t.val % 8 = 0) :
    (outsAt1 V c t.val t.isLt).2.2 = k1_pay4 (iblk1 V c 0 t) (k1_pay2 (F := F)) := by
  have h1 : ¬t.val % 8 = 7 := by omega
  rw [outsAt1_A V c t h0 h1]; dsimp only
  exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t)

/-- At any later point it is left at what the point before left plus those row sums. -/
theorem xsum_next (c : Dev nD) (t : Fin cfg1.N) (h0 : ¬ t.val % 8 = 0) :
    (outsAt1 V c t.val t.isLt).2.2 = k1_pay4 (iblk1 V c 0 t) (outsAt1 V c (t.val - 1) (Nat.lt_of_le_of_lt (Nat.sub_le _ _) t.isLt)).2.2 := by
  by_cases h1 : t.val % 8 = 7
  · rw [outsAt1_C V c t h0 h1]; dsimp only
    exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2
  · rw [outsAt1_B V c t h0 h1]; dsimp only
    exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- At the last point of a reduction the output block is the write-out of the two scratch buffers as that point leaves
    them, with the zero-point row (window 3), the scale row (window 2) and the bias row (window 4). -/
theorem out_last (c : Dev nD) (t : Fin cfg1.N) (h7 : t.val % 8 = 7) :
    (outsAt1 V c t.val t.isLt).1 = k1_pay6 (outsAt1 V c t.val t.isLt).2.1 (outsAt1 V c t.val t.isLt).2.2 (iblk1 V c 3 t) (iblk1 V c 2 t) (iblk1 V c 4 t) := by
  have h0 : ¬t.val % 8 = 0 := by omega
  have h1 : t.val % 8 = 7 := h7
  rw [outsAt1_C V c t h0 h1]; dsimp only
  exact out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

end Cert.KernelIdeal.Hand

end
-- ==== Proof.KI.Run.lean ====
import proofs.«404820_j10101763080230_2_alg».proof.Proof.KI.R0
import proofs.«404820_j10101763080230_2_alg».proof.Proof.KI.R1
import proofs.«404820_j10101763080230_2_alg».proof.Proof.Gen.KernelIdeal.Regions
import proofs.«404820_j10101763080230_2_alg».proof.Proof.Gen.KernelIdeal.Launch
import proofs.«404820_j10101763080230_2_alg».proof.Proof.Gen.KernelIdeal.Skeleton
import proofs.«404820_j10101763080230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at the two regions' entries and exits -/

/-- Region 0 is entered after the first host stretch: every TensorCore buffer at its contents there. -/
abbrev VV1 : (c : Dev nD) → (b : Ref sig .tc) → Buf (Elt F) ((c : Thread nD τ).loc b) := fun c b => Gen.V1 m c b

/-- What region 0 leaves in the unpacked weight array: its eight write-backs folded over the entry contents. -/
def o1 (c : Dev nD) : Buf (Elt F) ((c : Thread nD τ).loc main_v1) := (dat0 (VV1 m) c).arrAt 1 cfg0.N

/-- The regions' leavings known after region 0 alone: the unpacked weights; any other reading is never made. -/
def outsA : Gen.Outs (F := F) := fun _ r c => if h : r = main_v1 then h ▸ o1 m c else Gen.V0 m c r

/-- Region 1 is entered after the three host stretches that follow region 0. -/
abbrev VV5 : (c : Dev nD) → (b : Ref sig .tc) → Buf (Elt F) ((c : Thread nD τ).loc b) := fun c b => Gen.V5 m (outsA m) c b

/-- What region 1 leaves in the product array: its write-backs (one per output block, at the last reduction step). -/
def o7 (c : Dev nD) : Buf (Elt F) ((c : Thread nD τ).loc main_v7) := (dat1 (VV5 m) c).arrAt 5 cfg1.N

/-- Both regions' leavings. -/
def outs : Gen.Outs (F := F) := fun J r c => if h : r = main_v7 then h ▸ o7 m c else outsA m J r c

theorem outsA_v1 (J : ℕ) (c : Dev nD) : outsA m J main_v1 c = o1 m c := by
  unfold outsA; rw [dif_pos rfl]

theorem outs_v1 (c : Dev nD) : outs m 2 main_v1 c = o1 m c := by
  unfold outs; rw [dif_neg (by decide)]; exact outsA_v1 m 2 c

theorem outs_v7 (c : Dev nD) : outs m 6 main_v7 c = o7 m c := by
  unfold outs; rw [dif_pos rfl]

/-- Region 1's entry contents read the leavings at the unpacked weights only. -/
theorem V5_outs (c : Dev nD) : Gen.V5 m (outs m) c = Gen.V5 m (outsA m) c :=
  congrArg (fun x => StableHlo.after hostOps1_2 (StableHlo.after hostOps1_1 (StableHlo.after hostOps1
    (Function.update (Gen.V1 m c) main_v1 x)))) ((outs_v1 m c).trans (outsA_v1 m 2 c).symm)

/-! # The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV5 m) c

/-- No core owes another anything: no level is assigned. -/
abbrev L : GSem nD τ sig → Finset Unit := fun _ => ∅
abbrev lv : GSem nD τ sig → Unit → ℕ := fun _ _ => 0

/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # Region 0's exit contents -/

/-- At region 0's exit each of its arrays holds what the next boundary's valuation says: the packed input as
    entered (an input array is never written back), the unpacked weights at the write-backs' fold. -/
theorem hF0 (c : Dev nD) : ∀ w : Fin cfg0.W, (dat0 (VV1 m) c).arrAt w cfg0.N = Gen.V2 m (outs m) c (Pipeline.arrRef spec0 w)
  | ⟨0, _⟩ => ((dat0 (VV1 m) c).arrAt_in 0 rfl _).trans ((A_eq0 (VV1 m) c 0).trans (Gen.V2_of m (outs m) c main_arg1 (by decide)).symm)
  | ⟨1, _⟩ => ((Function.update_self (f := Gen.V1 m c) (Proc.devRef .tc main_v1) (outs m 2 main_v1 c)).trans (outs_v1 m c)).symm

/-- Every buffer that is no array of region 0 is as entered. -/
theorem hrest0 (c : Dev nD) : ∀ b, b ∉ Finset.univ.image (Pipeline.arrRef spec0) → Gen.V2 m (outs m) c b = VV1 m c b :=
  fun b hb => Gen.V2_of m (outs m) c b fun hmem =>
    hb (Finset.mem_image.mpr ⟨1, Finset.mem_univ _, (List.mem_singleton.mp hmem).symm⟩)

/-! # The core's dues at a pipeline point -/

/-- A core owing nothing, whatever pairs its waits have recorded, owes what a proof data says it owes at a point where
    the data owe nothing and bound the recorded pairs by nothing; -/
theorem owesAt_of_owes {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr, Set.univ_union]
  iintro ⟨%W, HO⟩
  iexists W
  isplitr
  · ipureintro; exact Set.subset_univ _
  iexact HO

/-- and back, the bound forgotten. -/
theorem owes_of_owesAt {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

/-! # The regions as segments -/

set_option backward.isDefEq.respectTransparency.types false in
/-- REGION 0 (the unpack call) over the thread state: entered from every unscoped buffer at the contents after the
    first host stretch, left at those contents with the unpacked weights replaced by the write-backs' fold. Its arrays
    split out of the unscoped buffers and put back at the exit contents; the generator register into the region's
    invariant and out; nothing owed; no semaphore of the kernel's own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun c t => owed_eq0 (VV1 m) c t
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (VV1 m) c w) (VV1 m c) fun w => A_eq0 (VV1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m 0 c) 0 (owed_eq0 (VV1 m) c 0) (recorded_eq0 (VV1 m) c 0)); iexact HO
    isplitl [Hp]; · iexact Hp
    iexact Hrest
  hin c := by
    rw [show (pdats m 0 c).Φ 0 = Pipeline.ΦA spec0 c from Phi_eq0 (VV1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi_eq0 (VV1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (VV1 m) c w)
      (VV1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m 0 c) (Fin.last _) (owed_eq0 (VV1 m) c (Fin.last _))); iexact HO

/-! # Region 1's exit contents -/

/-- At region 1's exit each of its arrays holds what the next boundary's valuation says: the five input arrays as
    entered (never written back), the product array at the write-backs' fold. -/
theorem hF1 (c : Dev nD) : ∀ w : Fin cfg1.W, (dat1 (VV5 m) c).arrAt w cfg1.N = Gen.V6 m (outs m) c (Pipeline.arrRef spec1 w)
  | ⟨0, _⟩ => ((dat1 (VV5 m) c).arrAt_in 0 rfl _).trans ((A_eq1 (VV5 m) c 0).trans
      ((congrFun (V5_outs m c) (Proc.devRef .tc main_v0)).symm.trans (Gen.V6_of m (outs m) c main_v0 (by decide)).symm))
  | ⟨1, _⟩ => ((dat1 (VV5 m) c).arrAt_in 1 rfl _).trans ((A_eq1 (VV5 m) c 1).trans
      ((congrFun (V5_outs m c) (Proc.devRef .tc main_v1)).symm.trans (Gen.V6_of m (outs m) c main_v1 (by decide)).symm))
  | ⟨2, _⟩ => ((dat1 (VV5 m) c).arrAt_in 2 rfl _).trans ((A_eq1 (VV5 m) c 2).trans
      ((congrFun (V5_outs m c) (Proc.devRef .tc main_v2)).symm.trans (Gen.V6_of m (outs m) c main_v2 (by decide)).symm))
  | ⟨3, _⟩ => ((dat1 (VV5 m) c).arrAt_in 3 rfl _).trans ((A_eq1 (VV5 m) c 3).trans
      ((congrFun (V5_outs m c) (Proc.devRef .tc main_v5)).symm.trans (Gen.V6_of m (outs m) c main_v5 (by decide)).symm))
  | ⟨4, _⟩ => ((dat1 (VV5 m) c).arrAt_in 4 rfl _).trans ((A_eq1 (VV5 m) c 4).trans
      ((congrFun (V5_outs m c) (Proc.devRef .tc main_v6)).symm.trans (Gen.V6_of m (outs m) c main_v6 (by decide)).symm))
  | ⟨5, _⟩ => ((Function.update_self (f := Gen.V5 m (outs m) c) (Proc.devRef .tc main_v7) (outs m 6 main_v7 c)).trans (outs_v7 m c)).symm

/-- Every buffer that is no array of region 1 is as entered. -/
theorem hrest1 (c : Dev nD) : ∀ b, b ∉ Finset.univ.image (Pipeline.arrRef spec1) → Gen.V6 m (outs m) c b = VV5 m c b :=
  fun b hb => (Gen.V6_of m (outs m) c b fun hmem =>
    hb (Finset.mem_image.mpr ⟨5, Finset.mem_univ _, (List.mem_singleton.mp hmem).symm⟩)).trans (congrFun (V5_outs m c) (Proc.devRef .tc b))

set_option backward.isDefEq.respectTransparency.types false in
/-- REGION 1 (the matmul call) over the thread state: entered from every unscoped buffer at the contents after the
    host stretches that follow region 0, left at those contents with the product array replaced by the write-backs'
    fold. The generator register and the scoped buffers no window stages (the two carried scratch operands among them)
    enter the region's invariant at the first point and leave it at the last; nothing owed; no semaphore of the
    kernel's own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VV5 m) c).loose
  hwaits := Pipeline.hwaits_of_owed_zero _ _ _ _ L lv 1 fun c t => owed_eq1 (VV5 m) c t
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VV5 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (VV5 m) c w) (VV5 m c) fun w => A_eq1 (VV5 m) c w
    rw [Pipeline.unscopedBufs_held, ← V5_outs m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m 1 c) 0 (owed_eq1 (VV5 m) c 0) (recorded_eq1 (VV5 m) c 0)); iexact HO
    isplitl [Hp]; · iexact Hp
    iexact Hrest
  hin c := by
    refine BIBase.Entails.trans ?_ (hin1 (VV5 m) c)
    unfold Pipeline.ΦA
    iintro ⟨Hp, -, Hr⟩
    isplitl [Hr]; · iexact Hr
    iexact Hp
  hout c := by
    refine BIBase.Entails.trans (hout1 (VV5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (VV5 m) c w)
      (VV5 m c) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m 1 c) (Fin.last _) (owed_eq1 (VV5 m) c (Fin.last _))); iexact HO

/-! # @main's run -/

/-- What rides along ends owing nothing. -/
theorem R_owes (c : Dev nD) : (R c : sProp 𝕄) ⊢ iprop(∃ W, owes (c : Thread nD τ) (0 : CellTallies nD τ sig Unit) W) := by
  iintro ⟨-, HO⟩
  iexact HO

set_option backward.isDefEq.respectTransparency.types false in
/-- THE RUN: from any memory with zero counters, every weakly fair execution of @main on the TensorCores terminates,
    and every final memory holds, in each unscoped buffer of each core, the last boundary's contents: the launch
    contents pushed through the host stretches, the unpacked weights at region 0's write-backs, the product array at
    region 1's. -/
theorem run_main : θ_run defs (onTc (τ := τ) (main (F := F))) ⟨m, fun _ => 0, ρ⟩
    (fun r => ∀ c : Dev nD, ∀ b ∈ Pipeline.ucRefs τ sig, r.2.mem ((c : Thread nD τ).1, b) = Gen.V7 m (outs m) c b) := by
  refine Pipeline.θ_run_regions_kit_dev (pcfgs (F := F)) adm (pdats m) () cellOf_inj emb₁ defs₀ Variants.none L lv m ρ main
    (Gen.segs m (outs m) Variants.none L lv (fun _ c => R c) () (pdats m) (reg0 m) (reg1 m))
    (fun c Q => by
      rewrite [main_chain c, Seg.run_eq_chain,
        show (Gen.segs m (outs m) Variants.none L lv (fun _ c => R c) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (R_owes c)⟩)
    (hinit := ?_)
    (QY := fun c s => ∀ b ∈ Pipeline.ucRefs τ sig, s.mem ((c : Thread nD τ).1, b) = Gen.V7 m (outs m) c b)
    (hfin := fun c s' => ?_) (hQ := fun _ h => h)
  · -- the launch element is the pipelines' own; no ghost resource beside it
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch, core by core: the unscoped buffers at the launch memory, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => ((c : Thread nD τ).1, b)) (Gen.V7 m (outs m) c) s')
    isplitl [Hh] <;> iassumption

/-- THE FRAME: every argument array ends holding its launch contents (no host stretch writes one, no region may
    change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Gen.V7_main_arg0 m (outs m) c),
     (h c _ (mem_uc main_arg1 (by decide))).trans (Gen.V7_main_arg1 m (outs m) c),
     (h c _ (mem_uc main_arg2 (by decide))).trans (Gen.V7_main_arg2 m (outs m) c),
     (h c _ (mem_uc main_arg3 (by decide))).trans (Gen.V7_main_arg3 m (outs m) c),
     (h c _ (mem_uc main_arg4 (by decide))).trans (Gen.V7_main_arg4 m (outs m) c)⟩) (run_main m ρ)

/-- THE RESULT: the result array ends at the last boundary's contents, beside the frame. -/
theorem result_mem : θ_run defs (onTc (τ := τ) (main (F := F))) ⟨m, fun _ => 0, ρ⟩ (fun r => ∀ c : Dev nD,
      r.2.mem ((c.tc : Thread nD τ).loc main_v8) = Gen.V7 m (outs m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v8 (by decide)),
     (h c _ (mem_uc main_arg0 (by decide))).trans (Gen.V7_main_arg0 m (outs m) c),
     (h c _ (mem_uc main_arg1 (by decide))).trans (Gen.V7_main_arg1 m (outs m) c),
     (h c _ (mem_uc main_arg2 (by decide))).trans (Gen.V7_main_arg2 m (outs m) c),
     (h c _ (mem_uc main_arg3 (by decide))).trans (Gen.V7_main_arg3 m (outs m) c),
     (h c _ (mem_uc main_arg4 (by decide))).trans (Gen.V7_main_arg4 m (outs m) c)⟩) (run_main m ρ)

end Cert.KernelIdeal.Hand

end
-- ==== Proof.KI.Entry.lean ====
/-
  What the host operations of the kernel's program leave in each buffer a kernel region reads, for any contents the
  regions themselves leave.

  Between the regions the program only reshapes: x [4, 2048, 4096] is flattened to [8192, 4096] (row b * 2048 + s);
  the columns scales, zeros [4096, 1] and the bias [4096] are laid out as rows [1, 4096]; the per-column zero point
  round-half-even (zeros[o] / scales[o]) is computed on those rows; and the second region's result [8192, 4096] is
  folded back to [4, 2048, 4096]. No host operation writes an argument, and the first region's result is not written
  again before the second region reads it.
-/
import proofs.«404820_j10101763080230_2_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen Idealize.ShloMosaic Idealize.ShloMosaic.TcCoe Idealize.SL.Sem

section Generic

variable {F : FTy → Type} [FloatOps F] (m : (ℓ : Loc nD τ sig) → Buf (Elt F) ℓ) (outs : Gen.Outs (F := F))

/-! ## Each host stretch, from any contents `W` -/

/-- The first stretch flattens x. -/
theorem flatten_x (W : Valuation τ sig (Elt F)) :
    StableHlo.after hostOps0 W (Proc.devRef .tc main_v0)
      = shapeCast S8192x4096 (W (Proc.devRef .tc main_arg0)) shapeCasts_S4x2048x4096_S8192x4096 := by
  after_results
  rfl

/-- The second stretch lays the scales out as a row. -/
theorem scales_row (W : Valuation τ sig (Elt F)) :
    StableHlo.after hostOps1 W (Proc.devRef .tc main_v2)
      = shapeCast S1x4096 (W (Proc.devRef .tc main_arg2)) shapeCasts_S4096x1_S1x4096 := by
  after_results
  rfl

/-- The second stretch divides the row of zeros by the row of scales. -/
theorem quotient_row (W : Valuation τ sig (Elt F)) :
    StableHlo.after hostOps1 W (Proc.devRef .tc main_v4)
      = Host.divf (shapeCast S1x4096 (W (Proc.devRef .tc main_arg3)) shapeCasts_S4096x1_S1x4096)
          (shapeCast S1x4096 (W (Proc.devRef .tc main_arg2)) shapeCasts_S4096x1_S1x4096) := by
  after_results
  rfl

/-- The third stretch rounds the quotients. -/
theorem rounded_row (W : Valuation τ sig (Elt F)) :
    StableHlo.after hostOps1_1 W (Proc.devRef .tc main_v5) = Host.roundeven (W (Proc.devRef .tc main_v4)) := by
  after_results
  rfl

/-- The fourth stretch lays the bias out as a row. -/
theorem bias_row (W : Valuation τ sig (Elt F)) :
    StableHlo.after hostOps1_2 W (Proc.devRef .tc main_v6)
      = shapeCast S1x4096 (W (Proc.devRef .tc main_arg4)) shapeCasts_S4096_S1x4096 := by
  after_results
  rfl

/-- The last stretch folds the second region's result back to three axes. -/
theorem fold_result (W : Valuation τ sig (Elt F)) :
    StableHlo.after hostOps2 W (Proc.devRef .tc main_v8)
      = shapeCast S4x2048x4096 (W (Proc.devRef .tc main_v7)) shapeCasts_S8192x4096_S4x2048x4096 := by
  after_results
  rfl

/-! ## The buffers the regions read -/

/-- The packed weights are an argument: as launched when the first region starts. -/
theorem V1_arg1 (c : Dev nD) : Gen.V1 m c main_arg1 = m ((c : Thread nD τ).loc main_arg1) :=
  (V1_of m c main_arg1 (by decide)).trans rfl

/-- The flattened x, when the second region starts. -/
theorem V5_v0 (c : Dev nD) : Gen.V5 m outs c main_v0
    = shapeCast S8192x4096 (m ((c : Thread nD τ).loc main_arg0)) shapeCasts_S4x2048x4096_S8192x4096 := by
  rw [V5_of m outs c main_v0 (by decide), V4_of m outs c main_v0 (by decide), V3_of m outs c main_v0 (by decide),
    V2_of m outs c main_v0 (by decide)]
  exact flatten_x (V0 m c)

/-- The first region's result is what it left: nothing writes it before the second region starts. -/
theorem V5_v1 (c : Dev nD) : Gen.V5 m outs c main_v1 = outs 2 main_v1 c := by
  rw [V5_of m outs c main_v1 (by decide), V4_of m outs c main_v1 (by decide), V3_of m outs c main_v1 (by decide)]
  exact Function.update_self _ _ _

/-- The row of scales, when the second region starts. -/
theorem V5_v2 (c : Dev nD) : Gen.V5 m outs c main_v2
    = shapeCast S1x4096 (m ((c : Thread nD τ).loc main_arg2)) shapeCasts_S4096x1_S1x4096 := by
  rw [V5_of m outs c main_v2 (by decide), V4_of m outs c main_v2 (by decide)]
  refine (scales_row (V2 m outs c)).trans ?_
  rw [V2_of m outs c main_arg2 (by decide), V1_of m c main_arg2 (by decide)]

/-- The row of zero points, when the second region starts. -/
theorem V5_v5 (c : Dev nD) : Gen.V5 m outs c main_v5
    = Host.roundeven (Host.divf (shapeCast S1x4096 (m ((c : Thread nD τ).loc main_arg3)) shapeCasts_S4096x1_S1x4096)
        (shapeCast S1x4096 (m ((c : Thread nD τ).loc main_arg2)) shapeCasts_S4096x1_S1x4096)) := by
  rw [V5_of m outs c main_v5 (by decide)]
  refine (rounded_row (V3 m outs c)).trans ?_
  refine congrArg Host.roundeven ((quotient_row (V2 m outs c)).trans ?_)
  rw [V2_of m outs c main_arg3 (by decide), V1_of m c main_arg3 (by decide),
    V2_of m outs c main_arg2 (by decide), V1_of m c main_arg2 (by decide)]

/-- The row of biases, when the second region starts. -/
theorem V5_v6 (c : Dev nD) : Gen.V5 m outs c main_v6
    = shapeCast S1x4096 (m ((c : Thread nD τ).loc main_arg4)) shapeCasts_S4096_S1x4096 := by
  refine (bias_row (V4 m outs c)).trans ?_
  rw [V4_of m outs c main_arg4 (by decide), V3_of m outs c main_arg4 (by decide), V2_of m outs c main_arg4 (by decide),
    V1_of m c main_arg4 (by decide)]

/-- The program's result: the second region's result folded back to three axes. -/
theorem V7_v8 (c : Dev nD) : Gen.V7 m outs c main_v8
    = shapeCast S4x2048x4096 (outs 6 main_v7 c) shapeCasts_S8192x4096_S4x2048x4096 := by
  refine (fold_result (V6 m outs c)).trans ?_
  exact congrArg (fun v => shapeCast S4x2048x4096 v shapeCasts_S8192x4096_S4x2048x4096) (Function.update_self _ _ _)

end Generic

/-! ## The reshapes at explicit coordinates -/

section Reshapes

open Idealize.ShloMosaic.ValueIdx

variable {α : Type}

/-- Flattening [4, 2048, 4096] to [8192, 4096]: row r is (r / 2048, r % 2048). -/
theorem flatten_at (x : S4x2048x4096.Idx → α) (r : Fin 8192) (k : Fin 4096) :
    shapeCast S8192x4096 x shapeCasts_S4x2048x4096_S8192x4096 (ix2 r k)
      = x (ix3 (⟨r.val / 2048, by have := r.isLt; omega⟩ : Fin 4) (⟨r.val % 2048, Nat.mod_lt _ (by decide)⟩ : Fin 2048) k) :=
  shapeCast_apply x _ _ _ (by
    rewrite [Shape.rowMajor_val_three, Shape.rowMajor_val_two]
    have hr := r.isLt
    have hk := k.isLt
    show (r.val / 2048 * 2048 + r.val % 2048) * 4096 + k.val = r.val * 4096 + k.val
    omega)

/-- A column [4096, 1] as a row [1, 4096]. -/
theorem col_as_row_at (x : S4096x1.Idx → α) (o : Fin 4096) :
    shapeCast S1x4096 x shapeCasts_S4096x1_S1x4096 (ix2 (0 : Fin 1) o) = x (ix2 o (0 : Fin 1)) :=
  shapeCast_apply x _ _ _ (by
    rewrite [Shape.rowMajor_val_two, Shape.rowMajor_val_two]
    show o.val * 1 + 0 = 0 * 4096 + o.val
    omega)

/-- A vector [4096] as a row [1, 4096]. -/
theorem vec_as_row_at (x : S4096.Idx → α) (o : Fin 4096) :
    shapeCast S1x4096 x shapeCasts_S4096_S1x4096 (ix2 (0 : Fin 1) o) = x (ix1 o) :=
  shapeCast_apply x _ _ _ (by
    rewrite [Shape.rowMajor_val_one, Shape.rowMajor_val_two]
    show o.val = 0 * 4096 + o.val
    omega)

/-- Folding [8192, 4096] back to [4, 2048, 4096]: (b, s) is row b * 2048 + s. -/
theorem fold_at (x : S8192x4096.Idx → α) (b : Fin 4) (s : Fin 2048) (o : Fin 4096) :
    shapeCast S4x2048x4096 x shapeCasts_S8192x4096_S4x2048x4096 (ix3 b s o)
      = x (ix2 (⟨b.val * 2048 + s.val, by have := b.isLt; have := s.isLt; omega⟩ : Fin 8192) o) :=
  shapeCast_apply x _ _ _ (by
    rewrite [Shape.rowMajor_val_two, Shape.rowMajor_val_three]
    show (b.val * 2048 + s.val) * 4096 + o.val = (b.val * 2048 + s.val) * 4096 + o.val
    rfl)

end Reshapes

/-! ## The same buffers over the extended reals, at an index -/

section AtIdeal

open Idealize.ShloMosaic.ValueIdx

variable (m : (ℓ : Loc nD τ sig) → Buf (Elt Ideal) ℓ) (outs : Gen.Outs (F := Ideal))

theorem V5_v0_at (c : Dev nD) (r : Fin 8192) (k : Fin 4096) :
    (Gen.V5 m outs c main_v0 : S8192x4096.Idx → EReal) (ix2 r k)
      = (m ((c : Thread nD τ).loc main_arg0) : S4x2048x4096.Idx → EReal)
          (ix3 (⟨r.val / 2048, by have := r.isLt; omega⟩ : Fin 4) (⟨r.val % 2048, Nat.mod_lt _ (by decide)⟩ : Fin 2048) k) := by
  rw [V5_v0]
  exact flatten_at _ r k

theorem V5_v2_at (c : Dev nD) (o : Fin 4096) :
    (Gen.V5 m outs c main_v2 : S1x4096.Idx → EReal) (ix2 (0 : Fin 1) o)
      = (m ((c : Thread nD τ).loc main_arg2) : S4096x1.Idx → EReal) (ix2 o (0 : Fin 1)) := by
  rw [V5_v2]
  exact col_as_row_at _ o

theorem V5_v5_at (c : Dev nD) (o : Fin 4096) :
    (Gen.V5 m outs c main_v5 : S1x4096.Idx → EReal) (ix2 (0 : Fin 1) o)
      = Ideal.liftRound Ideal.roundHalfEven (Ideal.div
          ((m ((c : Thread nD τ).loc main_arg3) : S4096x1.Idx → EReal) (ix2 o (0 : Fin 1)))
          ((m ((c : Thread nD τ).loc main_arg2) : S4096x1.Idx → EReal) (ix2 o (0 : Fin 1)))) := by
  rw [V5_v5]
  -- rounding and division act entry by entry
  show FloatOps.hostUnary (F := Ideal) (φ := .f32) .roundeven (FloatOps.hostDivf (F := Ideal) (φ := .f32)
      (shapeCast S1x4096 (m ((c : Thread nD τ).loc main_arg3)) shapeCasts_S4096x1_S1x4096 (ix2 (0 : Fin 1) o))
      (shapeCast S1x4096 (m ((c : Thread nD τ).loc main_arg2)) shapeCasts_S4096x1_S1x4096 (ix2 (0 : Fin 1) o))) = _
  rw [col_as_row_at, col_as_row_at, Ideal.hostUnary_roundeven_def, Ideal.hostDivf_def]

theorem V5_v6_at (c : Dev nD) (o : Fin 4096) :
    (Gen.V5 m outs c main_v6 : S1x4096.Idx → EReal) (ix2 (0 : Fin 1) o)
      = (m ((c : Thread nD τ).loc main_arg4) : S4096.Idx → EReal) (ix1 o) := by
  rw [V5_v6]
  exact vec_as_row_at _ o

theorem V7_v8_at (c : Dev nD) (b : Fin 4) (s : Fin 2048) (o : Fin 4096) :
    (Gen.V7 m outs c main_v8 : S4x2048x4096.Idx → EReal) (ix3 b s o)
      = (outs 6 main_v7 c : S8192x4096.Idx → EReal)
          (ix2 (⟨b.val * 2048 + s.val, by have := b.isLt; have := s.isLt; omega⟩ : Fin 8192) o) := by
  rw [V7_v8]
  exact fold_at _ b s o

end AtIdeal

end Cert.KernelIdeal.Hand

end
-- ==== Proof.Spec.lean ====
/-
  The mathematics both programs compute, index by index, over the extended reals.

  A packed word q[r, o] holds two 4-bit weights: its low nibble is the weight of input row 2r, the nibble above it the
  weight of input row 2r+1. With zp[o] = round-half-even (zeros[o] / scales[o]) the dequantized weight is
  (w[k, o] - zp[o]) * scales[o], and the layer is y[b, s, o] = sum_k x[b, s, k] * ((w[k, o] - zp[o]) * scales[o]) + bias[o]
  (`Gat`). The factored form pulls the affine part out of the contraction:
  ((sum_k x[b, s, k] * w[k, o]) - (sum_k x[b, s, k]) * zp[o]) * scales[o] + bias[o]  (`Kat`).
-/
import Idealize.ShloMosaic.PureOps.Ideal
import Idealize.ShloMosaic.Lib.ValueIdx

noncomputable section

open scoped BigOperators

namespace Cert.Dequant

open Idealize.ShloMosaic Idealize.ShloMosaic.ValueIdx

abbrev SX : Shape := ⟨3, ![4, 2048, 4096]⟩
abbrev SQ : Shape := ⟨2, ![2048, 4096]⟩
abbrev SC : Shape := ⟨2, ![4096, 1]⟩
abbrev SB : Shape := ⟨1, ![4096]⟩

/-- Row `k / 2` of the packed matrix holds input row `k`. -/
def half (k : Fin 4096) : Fin 2048 := ⟨k.val / 2, by have := k.isLt; omega⟩

/-- The 4-bit weight of input row `k`, output column `o`, as a word: the low nibble of the packed word for an even row,
    the next nibble (arithmetic shift by four, then the mask) for an odd one. -/
def nib (q : IVec SQ 32) (k o : Fin 4096) : BitVec 32 :=
  if k.val % 2 = 0 then IntOp.andi (q (ix2 (half k) o)) 15#32
  else IntOp.andi ((q (ix2 (half k) o)).sshiftRight' 4#32) 15#32

/-- That weight as an extended real: the word read as a signed integer. -/
def wreal (q : IVec SQ 32) (k o : Fin 4096) : EReal := (((nib q k o).toInt : ℝ) : EReal)

/-- The zero point of output column `o`: the quotient zeros / scales rounded to the nearest integer, ties to even
    (a quotient by zero is an infinity, which the rounding keeps). -/
def zpt (scales zeros : FVec Ideal SC .f32) (o : Fin 4096) : EReal :=
  Ideal.liftRound Ideal.roundHalfEven (Ideal.div (zeros (ix2 o (0 : Fin 1))) (scales (ix2 o (0 : Fin 1))))

/-- The scale of output column `o`. -/
def scl (scales : FVec Ideal SC .f32) (o : Fin 4096) : EReal := scales (ix2 o (0 : Fin 1))

/-- The layer with the weight dequantized first, at batch `b`, position `s`, output column `o`. -/
def Gat (x : FVec Ideal SX .f32) (q : IVec SQ 32) (scales zeros : FVec Ideal SC .f32) (bias : FVec Ideal SB .f32)
    (b : Fin 4) (s : Fin 2048) (o : Fin 4096) : EReal :=
  (∑ k : Fin 4096, x (ix3 b s k) * ((wreal q k o - zpt scales zeros o) * scl scales o)) + bias (ix1 o)

/-- The same layer with the affine part pulled out of the contraction. -/
def Kat (x : FVec Ideal SX .f32) (q : IVec SQ 32) (scales zeros : FVec Ideal SC .f32) (bias : FVec Ideal SB .f32)
    (b : Fin 4) (s : Fin 2048) (o : Fin 4096) : EReal :=
  ((∑ k : Fin 4096, x (ix3 b s k) * wreal q k o) - (∑ k : Fin 4096, x (ix3 b s k)) * zpt scales zeros o) * scl scales o
    + bias (ix1 o)

/-- `Gat` as one array. -/
def G (x : FVec Ideal SX .f32) (q : IVec SQ 32) (scales zeros : FVec Ideal SC .f32) (bias : FVec Ideal SB .f32) :
    FVec Ideal SX .f32 := fun i => Gat x q scales zeros bias (i 0) (i 1) (i 2)

/-- `Kat` as one array. -/
def K (x : FVec Ideal SX .f32) (q : IVec SQ 32) (scales zeros : FVec Ideal SC .f32) (bias : FVec Ideal SB .f32) :
    FVec Ideal SX .f32 := fun i => Kat x q scales zeros bias (i 0) (i 1) (i 2)

end Cert.Dequant

end
-- ==== Proof.Payloads.lean ====
/-
  The pure payloads of the two kernel bodies, each READ AT ONE INDEX, over the extended reals (a float is an extended
  real; the arithmetic is the extended reals' `+`, `-`, `*`; a format change is the identity; an integer-to-float
  conversion is the signed integer as a real).

  • The unpack body: a packed word holds two four-bit fields. The body masks the word (`w &&& 15`) and the word shifted
    right arithmetically by four (`(w >>ₛ 4) &&& 15`), gives each `[256, 4096]` plane a unit middle axis, joins the two on
    that axis and flattens `[256, 2, 4096]` to `[512, 4096]`. Row `r` of the result is therefore packed row `r / 2`,
    low field for even `r`, next field for odd `r` (`pay0_at`).
  • The matmul body: the two zero fills (`pay1_at`, `pay2_at`); the carried column plus the row sum of the left block
    (`pay4_at`); the carried accumulator plus the product's element `∑ j, x (p, j) * w (j, q)` (`pay5_at`); and the
    epilogue `(acc - xsum * zp) * scale + bias` with the column `xsum` and the rows `zp`, `scale`, `bias` broadcast
    (`pay6_at`).
-/
import proofs.«404820_j10101763080230_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

noncomputable section

namespace Cert.KernelIdeal.Pay

open Cert.KernelIdeal Cert.KernelIdeal.Gen Idealize.ShloMosaic Idealize.ShloMosaic.ValueIdx
open scoped BigOperators

/-! ## Three small layout readings, by coordinates -/

/-- A vector `[a]` cast to a column `[a, 1]` reads, at `(i, u)`, the vector at `i`: the row-major positions are
    `i` and `i * 1 + u` with `u = 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`: on the first axis the
    coordinate is kept (and is `0` anyway when `a = 1`), on the unit axis it is `0`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, 1, b]` reads, at `(i, u, j)`, the operand at `(i, j)`: the row-major positions are
    `i * b + j` and `(i * 1 + u) * b + j` with `u = 0`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## The matmul body's zero fills -/

/-- The accumulator's fill is the zero word everywhere, and the zero word is the extended real `0`. -/
theorem pay1_at (p : Fin 1024) (q : Fin 2048) : k1_pay1 (F := Ideal) (ix2 p q) = 0 := by
  unfold k1_pay1
  rw [shapeCast_self]
  exact Ideal.ofBits_zero_f32

/-- The row-sum column's fill is the zero word everywhere, and the zero word is the extended real `0`. -/
theorem pay2_at (p : Fin 1024) : k1_pay2 (F := Ideal) (ix2 p (0 : Fin 1)) = 0 := by
  unfold k1_pay2
  rw [shapeCast_self]
  exact Ideal.ofBits_zero_f32

/-! ## The row sum added to the carried column -/

/-- The sum over the second axis of a `[1024, 512]` array, read at row `p`: the `Fin 512`-indexed sum of the row. The
    index over row `p` with `k` inserted on the summed axis is `(p, k)`, coordinate by coordinate. -/
theorem rowsum_at (x : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 x 0x00000000#32 h hφ hacc (ix1 p) = ∑ j : Fin 512, x (ix2 p j) := by
  refine (Ideal.multiReduction_add_single x 0x00000000#32 h hφ hacc (ix1 p)).trans ?_
  refine Finset.sum_congr rfl fun k _ => congrArg x ?_
  funext a
  match a with
  | ⟨0, _⟩ => rfl
  | ⟨1, _⟩ => rfl

/-- The new row-sum column at row `p`: the carried column there plus the sum of row `p` of the left block. The sum is
    taken as a vector `[1024]`, stood up as a column `[1024, 1]`, and added. -/
theorem pay4_at (x : Vec Ideal S1024x512 .f32) (xs : Vec Ideal S1024x1 .f32) (p : Fin 1024) :
    k1_pay4 x xs (ix2 p (0 : Fin 1)) = xs (ix2 p (0 : Fin 1)) + ∑ j : Fin 512, x (ix2 p j) := by
  unfold k1_pay4 k1_pay3
  rw [shapeCast_self, shapeCast_self, addf_apply]
  refine congrArg (xs (ix2 p (0 : Fin 1)) + ·) ?_
  refine (shapeCast_a_a1_apply _ _ p 0).trans ?_
  exact rowsum_at x _ _ _ p

/-! ## The matmul's operand indices, axis by axis

The product contracts axis 1 of the left operand with axis 0 of the right; the result's axes are the left operand's
axis 0 and the right operand's axis 1. So at result index `i` and contraction index `q` the left operand is read at
`(i 0, q)` and the right at `(q, i 1)`. -/

theorem lhs_dot_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_dot_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_dot_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_dot_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The `[1024, 512] × [512, 2048]` product into the zero accumulator, read at `(p, q)`: the zero drops out, and the sum
    over the contraction index, re-indexed through its one coordinate `k : Fin 512`, is the sum of the left operand at
    `(p, k)` times the right at `(k, q)`. -/
theorem matmul_at (l : FVec Ideal S1024x512 .bf16) (r : FVec Ideal S512x2048 .bf16) (p : Fin 1024) (q : Fin 2048) :
    matmul dot_S1024x512_S512x2048_S1024x2048_1_0_0_1_n_n none l r (constant (F := Ideal) S1024x2048 .f32 0x00000000#32) (ix2 p q)
      = ∑ k : Fin 512, l (ix2 p k) * r (ix2 k q) := by
  simp only [matmul]
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-- The new accumulator at `(p, q)`: the carried accumulator there plus `∑ j, x (p, j) * w (j, q)`. Narrowing the left
    block's format changes no value. -/
theorem pay5_at (x : Vec Ideal S1024x512 .f32) (acc : Vec Ideal S1024x2048 .f32) (w : Vec Ideal S512x2048 .bf16) (p : Fin 1024) (q : Fin 2048) :
    k1_pay5 x acc w (ix2 p q) = acc (ix2 p q) + ∑ j : Fin 512, x (ix2 p j) * w (ix2 j q) := by
  unfold k1_pay5 k1_pay3
  rw [shapeCast_self, shapeCast_self, shapeCast_self, addf_apply]
  refine congrArg (acc (ix2 p q) + ·) ?_
  exact matmul_at _ _ p q

/-! ## The epilogue -/

/-- The stored result at `(p, q)`: `(acc (p, q) - xsum (p, 0) * zp (0, q)) * scale (0, q) + bias (0, q)`. Every operation is
    elementwise; the column `xsum` is broadcast along the rows' length and the rows `zp`, `scale`, `bias` down the
    columns. -/
theorem pay6_at (acc : Vec Ideal S1024x2048 .f32) (xs : Vec Ideal S1024x1 .f32) (zp sc bs : Vec Ideal S1x2048 .f32) (p : Fin 1024) (q : Fin 2048) :
    k1_pay6 acc xs zp sc bs (ix2 p q) = (acc (ix2 p q) - xs (ix2 p (0 : Fin 1)) * zp (ix2 (0 : Fin 1) q)) * sc (ix2 (0 : Fin 1) q) + bs (ix2 (0 : Fin 1) q) := by
  unfold k1_pay6
  simp only [shapeCast_self, addf_apply, mulf_apply, subf_apply, broadcastTo_1b_ab_apply, broadcastTo_a1_ab_apply]

/-! ## The interleave of two nibble planes -/

/-- Two `[256, 4096]` planes `A`, `B`, each given a unit middle axis, joined on that axis and flattened to
    `[512, 4096]`: row `r` of the result is row `r / 2` of `A` when `r` is even and of `B` when `r` is odd. Row `r`,
    column `o` sits at row-major position `r * 4096 + o = ((r / 2) * 2 + r % 2) * 4096 + o`, which is the position of
    `(r / 2, r % 2, o)` in `[256, 2, 4096]`; the middle coordinate `r % 2` then picks the piece (`0`: the first, at
    middle coordinate `0`; `1`: the second, at middle coordinate `1 - 1 = 0`). -/
theorem interleave_at {α : Type} (A B : S256x4096.Idx → α) (h1 : S256x4096.ShapeCasts S256x1x4096)
    (hc : Shape.Concatenates [S256x1x4096, S256x1x4096] S256x2x4096 1) (h2 : S256x2x4096.ShapeCasts S512x4096)
    (r : Fin 512) (o : Fin 4096) :
    shapeCast S512x4096 (concatenate S256x2x4096 1 [⟨S256x1x4096, shapeCast S256x1x4096 A h1⟩, ⟨S256x1x4096, shapeCast S256x1x4096 B h1⟩] hc) h2 (ix2 r o)
      = if r.val % 2 = 0 then A (ix2 (⟨r.val / 2, by have := r.isLt; omega⟩ : Fin 256) o)
        else B (ix2 (⟨r.val / 2, by have := r.isLt; omega⟩ : Fin 256) o) := by
  have hr := r.isLt
  refine (shapeCast_apply _ h2 (ix2 r o)
    (ix3 (⟨r.val / 2, by omega⟩ : Fin 256) (⟨r.val % 2, by omega⟩ : Fin 2) o) ?_).trans ?_
  · rw [Shape.rowMajor_val_three, Shape.rowMajor_val_two]
    show (r.val / 2 * 2 + r.val % 2) * 4096 + o.val = r.val * 4096 + o.val
    omega
  · split
    · next h0 =>
      refine (concatenate_pair_apply_left (t := S256x2x4096) (s₁ := S256x1x4096) (s₂ := S256x1x4096) (1 : Fin 3) _ _ hc _ rfl
        (ix3 (⟨r.val / 2, by omega⟩ : Fin 256) (0 : Fin 1) o) ?_).trans ?_
      · intro b
        match b with
        | ⟨0, _⟩ => rfl
        | ⟨1, _⟩ => show 0 = r.val % 2; omega
        | ⟨2, _⟩ => rfl
      · exact shapeCast_ab_a1b_apply A h1 _ _ _
    · next h0 =>
      refine (concatenate_pair_apply_right (t := S256x2x4096) (s₁ := S256x1x4096) (s₂ := S256x1x4096) (1 : Fin 3) _ _ hc _ rfl rfl
        (ix3 (⟨r.val / 2, by omega⟩ : Fin 256) (0 : Fin 1) o) ?_ ?_).trans ?_
      · intro b hb
        match b with
        | ⟨0, _⟩ => rfl
        | ⟨1, _⟩ => exact absurd rfl hb
        | ⟨2, _⟩ => rfl
      · show 0 + 1 = r.val % 2
        omega
      · exact shapeCast_ab_a1b_apply B h1 _ _ _

/-- The unpack payload at `(r, o)`: the low nibble of packed word `(r / 2, o)` when `r` is even, the next nibble (the
    word shifted right arithmetically by four, then masked) when `r` is odd, as a signed integer made a real. The shift
    amount `4` is below the width `32`, so the vector unit's shift is the arithmetic shift itself; the conversion to a
    float is the signed integer as a real, and narrowing the format changes no value. -/
theorem pay0_at (v : Vec Ideal S256x4096 .i32) (r : Fin 512) (o : Fin 4096) :
    k0_pay1 v (ix2 r o) = ((((if r.val % 2 = 0 then IntOp.andi (v (ix2 (⟨r.val / 2, by have := r.isLt; omega⟩ : Fin 256) o)) 15#32
        else IntOp.andi ((v (ix2 (⟨r.val / 2, by have := r.isLt; omega⟩ : Fin 256) o)).sshiftRight' 4#32) 15#32).toInt : ℝ)) : EReal) := by
  unfold k0_pay1
  rw [truncf_apply, sitofp_apply]
  refine congrArg (fun b : BitVec 32 => ((b.toInt : ℝ) : EReal)) ?_
  refine (interleave_at _ _ _ _ _ r o).trans ?_
  split
  · rfl
  · rfl

end Cert.KernelIdeal.Pay

end
-- ==== Proof.KI.Value0.lean ====
/-
  What the unpack region leaves in its output array, as one function of the packed array.

  The grid has 8 points. Point t reads the packed block of rows 256 t .. 256 t + 255 and writes back the weight block of
  rows 512 t .. 512 t + 511; row r of the written block is the low nibble of packed row r / 2 of the read block for even
  r and the next nibble for odd r, as a real. Row 512 t + r of the weight array is therefore read off packed row
  (512 t + r) / 2 = 256 t + r / 2, and 512 t + r has the parity of r: each point writes its block of the one function
  W0 of the packed array, and since the 8 blocks of 512 rows tile the 4096 rows, the array ends at W0.
-/
import proofs.«404820_j10101763080230_2_alg».proof.Proof.KI.R0
import proofs.«404820_j10101763080230_2_alg».proof.Proof.Spec
import proofs.«404820_j10101763080230_2_alg».proof.Proof.Payloads
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered
variable (V : (c : Dev nD) → (b : Ref sig .tc) → Buf (Elt Ideal) ((c : Thread nD τ).loc b))

/-- The weight array the unpacking leaves: entry (k, o) is the 4-bit weight of input row k, output column o, of the
    packed array, as a real. -/
def W0 (Q : S2048x4096.Idx → BitVec 32) : S4096x4096.Idx → EReal := fun i => Cert.Dequant.wreal Q (i 0) (i 1)

/-- The loads and the store of the body start at the origin of their blocks. -/
theorem origin2 : (![0, 0] : Fin 2 → Nat) = fun _ => 0 := funext fun a => by fin_cases a <;> rfl

/-- Both index maps send grid point t to block (t, 0): the packed block of 256 rows and the weight block of 512 rows
    move together down the rows. -/
theorem blocks_at_point0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The weight of row k, column o' read off the packed word at p, when k has the parity of r and p is the packed
    position (k / 2, o'): the low nibble for an even row, the next nibble for an odd one. -/
theorem wreal_of_packed (Q : S2048x4096.Idx → BitVec 32) (k o' : Fin 4096) (r : Fin 512) (p : S2048x4096.Idx)
    (hk : k.val % 2 = r.val % 2) (hp : ix2 (Cert.Dequant.half k) o' = p) :
    Cert.Dequant.wreal Q k o'
      = ((((if r.val % 2 = 0 then IntOp.andi (Q p) 15#32 else IntOp.andi ((Q p).sshiftRight' 4#32) 15#32).toInt : ℝ)) : EReal) := by
  subst hp
  unfold Cert.Dequant.wreal Cert.Dequant.nib
  rw [hk]

theorem flushed0_eq (c : Dev nD) (t : Fin cfg0.N) :
    (dat0 V c).flushed 1 t = ((cfg0.win 1).blk t).view.read (Elt Ideal) (W0 (V c main_arg1)) := by
  show (cfg0.win 1).cut (grid0.coords t) ((dat0 V c).after 1 t) = _
  rw [after0_1]
  unfold out0_1
  rw [View.canon_unit_zero origin2]
  simp only [View.ld_unit_zero (S := S256x4096) origin2]
  obtain ⟨e00, e01, e10, e11⟩ := blocks_at_point0 t
  funext j
  obtain ⟨r, o, rfl⟩ : ∃ (r : Fin 512) (o : Fin 4096), j = ix2 r o := ⟨j 0, j 1, eq_ix2 j⟩
  show k0_pay1 (iblk0 V c 0 t) (ix2 r o)
    = Cert.Dequant.wreal (V c main_arg1) (((cfg0.win 1).blk t).view.emb (ix2 r o) 0) (((cfg0.win 1).blk t).view.emb (ix2 r o) 1)
  refine (Pay.pay0_at (iblk0 V c 0 t) r o).trans ?_
  have hr : r.val < 512 := r.isLt
  refine (wreal_of_packed (V c main_arg1) _ _ r
    (((cfg0.win 0).blk t).view.emb (ix2 (⟨r.val / 2, by omega⟩ : Fin 256) o)) ?_ ?_).symm
  · show (win0_1.index t (0 : Fin 2) * 512 + 1 * r.val) % 2 = r.val % 2
    omega
  · funext a; apply Fin.ext
    match a with
    | ⟨0, _⟩ =>
      show (win0_1.index t (0 : Fin 2) * 512 + 1 * r.val) / 2 = win0_0.index t (0 : Fin 2) * 256 + 1 * (r.val / 2)
      omega
    | ⟨1, _⟩ =>
      show win0_1.index t (1 : Fin 2) * 4096 + 1 * o.val = win0_0.index t (1 : Fin 2) * 4096 + 1 * o.val
      omega

/-- An index of the weight array is in point t's block iff each coordinate is in the block's range on its axis. -/
theorem mem_rows0 (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v1).slice (win0_1.rect t)).set ↔ _
  rw [View.set_slice_whole, Rect.mem_set_unit]
  exact Iff.rfl

/-- The eight blocks of 512 rows tile the 4096 rows: row k lies in the block of point k / 512, and every point
    writes its block back. -/
theorem cover0 (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ : ∃ t : Fin cfg0.N, t.val = (i 0).val / 512 :=
    ⟨⟨(i 0).val / 512, by rw [show cfg0.N = 8 from N_0]; omega⟩, rfl⟩
  obtain ⟨-, -, e10, e11⟩ := blocks_at_point0 t
  refine ⟨t, flush0_1 t, ?_⟩
  rw [mem_rows0]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 4096 ≤ (i 1).val ∧ (i 1).val < win0_1.index t (1 : Fin 2) * 4096 + 4096
    omega

theorem final0 (c : Dev nD) : (dat0 V c).arrAt 1 cfg0.N = W0 (V c main_arg1) :=
  (dat0 V c).arrAt_eq_of_cover 1 (W0 (V c main_arg1)) (fun t _ => flushed0_eq V c t) cover0

end Cert.KernelIdeal.Hand

end
-- ==== Proof.Algebra.lean ====
/-
  The algebraic law that joins the factored form of the layer to the dequantize-first form, over the extended reals,
  and a re-indexing of a sum of 4096 terms as 8 blocks of 512.

  The law in the reals is plain distributivity: with x_k the inputs, w_k the integer weights, p the zero point and
  c the scale of one output column,

      ((sum_k x_k * w_k) - (sum_k x_k) * p) * c  =  sum_k x_k * ((w_k - p) * c).

  Over the extended reals distributivity fails at the infinities, so the proof first decides whether everything in
  sight is finite. The inputs, the scales and the zeros are finite by hypothesis and the weights are integers. The
  zero point p = round (zeros / scales) is finite exactly when the scale c is not 0. So:

  * if c = 0, every summand x_k * ((w_k - p) * 0) is 0 and the factored form is (anything) * 0 = 0: both sides are
    0 + bias, whatever p is (it is an infinity here);
  * if c is not 0, the quotient zeros / c is the real product zeros * (1 / c), its rounding is an integer, every term
    is the image of a real number, the coercion of the reals moves outside the sums, the products and the
    difference, and the identity is the real one above.

  The bias is added last on both sides and may be any extended real.
-/
import proofs.«404820_j10101763080230_2_alg».proof.Proof.Spec
import Mathlib.Data.EReal.Basic
import Mathlib.Data.EReal.Operations
import Mathlib.Algebra.BigOperators.Fin
import Mathlib.Data.Fintype.BigOperators
import Mathlib.Logic.Equiv.Fin.Basic
import Mathlib.Tactic.Ring

noncomputable section

open scoped BigOperators

namespace Cert.Dequant

open Idealize.ShloMosaic Idealize.ShloMosaic.ValueIdx

/-- The inclusion of the reals in the extended reals commutes with a finite sum: it sends 0 to 0 and a sum of two
    reals to the sum of their images, so induction on the index set does it. -/
theorem coe_sum_real {ι : Type*} (t : Finset ι) (f : ι → ℝ) :
    ((∑ k ∈ t, f k : ℝ) : EReal) = ∑ k ∈ t, (f k : EReal) := by
  classical
  refine Finset.induction_on t ?_ ?_
  · rw [Finset.sum_empty, Finset.sum_empty, EReal.coe_zero]
  · intro a t ha ih
    rw [Finset.sum_insert ha, Finset.sum_insert ha, EReal.coe_add, ih]

/-- With a finite zero and a finite scale c ≠ 0 the zero point is finite: zeros / c is the real number
    zeros * (1 / c), and rounding a real number gives an integer. -/
theorem zpt_coe (scales zeros : FVec Ideal SC .f32) (o : Fin 4096) (c z : ℝ) (hc : c ≠ 0)
    (hs : scales (ix2 o (0 : Fin 1)) = (c : EReal)) (hz : zeros (ix2 o (0 : Fin 1)) = (z : EReal)) :
    zpt scales zeros o = (((Ideal.roundHalfEven (z * (1 / c)) : ℤ) : ℝ) : EReal) := by
  rw [zpt, hs, hz, Ideal.div_coe hc, ← EReal.coe_mul, Ideal.liftRound_coe]

/-- Distributivity in the reals: the scale and the zero point come out of the contraction. -/
theorem real_law {ι : Type*} (t : Finset ι) (x w : ι → ℝ) (p c : ℝ) :
    ((∑ k ∈ t, x k * w k) - (∑ k ∈ t, x k) * p) * c = ∑ k ∈ t, x k * ((w k - p) * c) := by
  rw [sub_mul, Finset.sum_mul, Finset.sum_mul, Finset.sum_mul, ← Finset.sum_sub_distrib]
  refine Finset.sum_congr rfl ?_
  intro k _
  ring

theorem Kat_eq_Gat (x : FVec Ideal SX .f32) (q : IVec SQ 32) (scales zeros : FVec Ideal SC .f32) (bias : FVec Ideal SB .f32)
    (hx : ∀ i, ∃ r : ℝ, x i = (r : EReal)) (hs : ∀ i, ∃ r : ℝ, scales i = (r : EReal)) (hz : ∀ i, ∃ r : ℝ, zeros i = (r : EReal))
    (b : Fin 4) (s : Fin 2048) (o : Fin 4096) :
    Kat x q scales zeros bias b s o = Gat x q scales zeros bias b s o := by
  unfold Kat Gat
  by_cases h0 : scl scales o = 0
  · -- The scale is 0: each summand on the right is x * (_ * 0) = 0 and the left is _ * 0 = 0.
    rw [h0]
    simp only [mul_zero, Finset.sum_const_zero]
  · -- The scale is a real c ≠ 0: everything is finite.
    obtain ⟨c, hc⟩ := hs (ix2 o (0 : Fin 1))
    obtain ⟨z, hzz⟩ := hz (ix2 o (0 : Fin 1))
    have hsc : scl scales o = (c : EReal) := hc
    have hc0 : c ≠ 0 := by
      intro h
      apply h0
      rw [hsc, h, EReal.coe_zero]
    choose xr hxr using hx
    rw [zpt_coe scales zeros o c z hc0 hc hzz, hsc]
    simp only [hxr, wreal]
    refine congrArg (fun t : EReal => t + bias (ix1 o)) ?_
    -- Both sides are images of real numbers; move the inclusion outside and use the real law.
    simp only [← EReal.coe_mul, ← EReal.coe_sub, ← coe_sum_real]
    rw [real_law]

theorem K_eq_G (x : FVec Ideal SX .f32) (q : IVec SQ 32) (scales zeros : FVec Ideal SC .f32) (bias : FVec Ideal SB .f32)
    (hx : ∀ i, ∃ r : ℝ, x i = (r : EReal)) (hs : ∀ i, ∃ r : ℝ, scales i = (r : EReal)) (hz : ∀ i, ∃ r : ℝ, zeros i = (r : EReal)) :
    K x q scales zeros bias = G x q scales zeros bias := by
  funext i
  exact Kat_eq_Gat x q scales zeros bias hx hs hz (i 0) (i 1) (i 2)

/-- A sum over 4096 indices is the sum over 8 blocks of 512. -/
theorem sum_blocks {M : Type*} [AddCommMonoid M] (f : Fin 4096 → M) :
    (∑ kb : Fin 8, ∑ j : Fin 512, f ⟨kb.val * 512 + j.val, by have := kb.isLt; have := j.isLt; omega⟩) = ∑ k : Fin 4096, f k := by
  -- The double sum is a sum over pairs (block, offset), and (block, offset) ↦ offset + 512 * block is a bijection
  -- of the pairs with the 4096 indices.
  rw [← Fintype.sum_prod_type']
  refine Fintype.sum_equiv (finProdFinEquiv : Fin 8 × Fin 512 ≃ Fin 4096) _ _ ?_
  intro p
  refine congrArg f (Fin.ext ?_)
  show p.1.val * 512 + p.2.val = p.2.val + 512 * p.1.val
  ring

end Cert.Dequant

end
-- ==== Proof.KI.Value1.lean ====
import proofs.«404820_j10101763080230_2_alg».proof.Proof.Gen.KernelIdeal.Launch
import proofs.«404820_j10101763080230_2_alg».proof.Proof.Gen.KernelIdeal.Skeleton
import proofs.«404820_j10101763080230_2_alg».proof.Proof.Gen.KernelIdeal.Points
import proofs.«404820_j10101763080230_2_alg».proof.Proof.KI.R1
import proofs.«404820_j10101763080230_2_alg».proof.Proof.Payloads
import proofs.«404820_j10101763080230_2_alg».proof.Proof.Algebra
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the TensorCore's buffer contents when the region is entered
variable (V : (c : Dev nD) → (b : Ref sig .tc) → Buf (Elt Ideal) ((c : Thread nD τ).loc b))

open Idealize.ShloMosaic.ValueIdx Cert.KernelIdeal.Pay
open scoped BigOperators

/-! ## The grid: point t is (row block t / 16, column block (t / 8) % 2, reduction step t % 8) -/

/-- The printed index maps of region 1's windows, decided once over the 128 points. -/
theorem idx1_facts : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = t.val / 8 % 2
    ∧ win1_2.index t (0 : Fin 2) = 0 ∧ win1_2.index t (1 : Fin 2) = t.val / 8 % 2
    ∧ win1_3.index t (0 : Fin 2) = 0 ∧ win1_3.index t (1 : Fin 2) = t.val / 8 % 2
    ∧ win1_4.index t (0 : Fin 2) = 0 ∧ win1_4.index t (1 : Fin 2) = t.val / 8 % 2
    ∧ win1_5.index t (0 : Fin 2) = t.val / 16 ∧ win1_5.index t (1 : Fin 2) = t.val / 8 % 2 :=
  (by decide +kernel : ∀ t : Fin grid1.N, _)

/-! ## The arrays region 1 reads, with natural-number coordinates (zero outside the array) -/

variable (c : Dev nD)

/-- The activations, rows by columns. -/
def Xn (r k : ℕ) : EReal := if h : r < 8192 ∧ k < 4096 then (V c main_v0 : S8192x4096.Idx → EReal) (ix2 ⟨r, h.1⟩ ⟨k, h.2⟩) else 0
/-- The unpacked weights. -/
def Wn (k o : ℕ) : EReal := if h : k < 4096 ∧ o < 4096 then (V c main_v1 : S4096x4096.Idx → EReal) (ix2 ⟨k, h.1⟩ ⟨o, h.2⟩) else 0
/-- The scale, zero-point and bias rows. -/
def Sn (o : ℕ) : EReal := if h : o < 4096 then (V c main_v2 : S1x4096.Idx → EReal) (ix2 (0 : Fin 1) ⟨o, h⟩) else 0
def Zn (o : ℕ) : EReal := if h : o < 4096 then (V c main_v5 : S1x4096.Idx → EReal) (ix2 (0 : Fin 1) ⟨o, h⟩) else 0
def Bn (o : ℕ) : EReal := if h : o < 4096 then (V c main_v6 : S1x4096.Idx → EReal) (ix2 (0 : Fin 1) ⟨o, h⟩) else 0

/-! ## Each window's block at a point, read at explicit coordinates -/

theorem xblk_at (t : Fin cfg1.N) (p : Fin 1024) (j : Fin 512) :
    (iblk1 V c 0 t : S1024x512.Idx → EReal) (ix2 p j) = Xn V c (t.val / 16 * 1024 + p.val) (t.val % 8 * 512 + j.val) := by
  obtain ⟨e0, e1, -⟩ := idx1_facts t
  have ht : t.val < 128 := lt_of_lt_of_eq t.isLt N_1
  have hr : t.val / 16 * 1024 + p.val < 8192 := by have := p.isLt; omega
  have hk : t.val % 8 * 512 + j.val < 4096 := by have := j.isLt; omega
  unfold Xn; rw [dif_pos ⟨hr, hk⟩]
  show (V c main_v0 : S8192x4096.Idx → EReal) (((cfg1.win 0).blk t).view.emb (ix2 p j)) = _
  refine congrArg _ (funext fun a => Fin.ext ?_)
  match a with
  | ⟨0, _⟩ => show win1_0.index t (0 : Fin 2) * 1024 + 1 * p.val = _; rw [e0]; show _ = t.val / 16 * 1024 + p.val; omega
  | ⟨1, _⟩ => show win1_0.index t (1 : Fin 2) * 512 + 1 * j.val = _; rw [e1]; show _ = t.val % 8 * 512 + j.val; omega

theorem wblk_at (t : Fin cfg1.N) (j : Fin 512) (q : Fin 2048) :
    (iblk1 V c 1 t : S512x2048.Idx → EReal) (ix2 j q) = Wn V c (t.val % 8 * 512 + j.val) (t.val / 8 % 2 * 2048 + q.val) := by
  obtain ⟨-, -, e0, e1, -⟩ := idx1_facts t
  have hk : t.val % 8 * 512 + j.val < 4096 := by have := j.isLt; omega
  have ho : t.val / 8 % 2 * 2048 + q.val < 4096 := by have := q.isLt; omega
  unfold Wn; rw [dif_pos ⟨hk, ho⟩]
  show (V c main_v1 : S4096x4096.Idx → EReal) (((cfg1.win 1).blk t).view.emb (ix2 j q)) = _
  refine congrArg _ (funext fun a => Fin.ext ?_)
  match a with
  | ⟨0, _⟩ => show win1_1.index t (0 : Fin 2) * 512 + 1 * j.val = _; rw [e0]; show _ = t.val % 8 * 512 + j.val; omega
  | ⟨1, _⟩ => show win1_1.index t (1 : Fin 2) * 2048 + 1 * q.val = _; rw [e1]; show _ = t.val / 8 % 2 * 2048 + q.val; omega

theorem srow_at (t : Fin cfg1.N) (q : Fin 2048) :
    (iblk1 V c 2 t : S1x2048.Idx → EReal) (ix2 (0 : Fin 1) q) = Sn V c (t.val / 8 % 2 * 2048 + q.val) := by
  obtain ⟨-, -, -, -, e0, e1, -⟩ := idx1_facts t
  have ho : t.val / 8 % 2 * 2048 + q.val < 4096 := by have := q.isLt; omega
  unfold Sn; rw [dif_pos ho]
  show (V c main_v2 : S1x4096.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = _; rw [e0]; rfl
  | ⟨1, _⟩ => show win1_2.index t (1 : Fin 2) * 2048 + 1 * q.val = _; rw [e1]; show _ = t.val / 8 % 2 * 2048 + q.val; omega

theorem zrow_at (t : Fin cfg1.N) (q : Fin 2048) :
    (iblk1 V c 3 t : S1x2048.Idx → EReal) (ix2 (0 : Fin 1) q) = Zn V c (t.val / 8 % 2 * 2048 + q.val) := by
  obtain ⟨-, -, -, -, -, -, e0, e1, -⟩ := idx1_facts t
  have ho : t.val / 8 % 2 * 2048 + q.val < 4096 := by have := q.isLt; omega
  unfold Zn; rw [dif_pos ho]
  show (V c main_v5 : S1x4096.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = _; rw [e0]; rfl
  | ⟨1, _⟩ => show win1_3.index t (1 : Fin 2) * 2048 + 1 * q.val = _; rw [e1]; show _ = t.val / 8 % 2 * 2048 + q.val; omega

theorem brow_at (t : Fin cfg1.N) (q : Fin 2048) :
    (iblk1 V c 4 t : S1x2048.Idx → EReal) (ix2 (0 : Fin 1) q) = Bn V c (t.val / 8 % 2 * 2048 + q.val) := by
  obtain ⟨-, -, -, -, -, -, -, -, e0, e1, -⟩ := idx1_facts t
  have ho : t.val / 8 % 2 * 2048 + q.val < 4096 := by have := q.isLt; omega
  unfold Bn; rw [dif_pos ho]
  show (V c main_v6 : S1x4096.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = _; rw [e0]; rfl
  | ⟨1, _⟩ => show win1_4.index t (1 : Fin 2) * 2048 + 1 * q.val = _; rw [e1]; show _ = t.val / 8 % 2 * 2048 + q.val; omega

/-! ## What the two carried scratch buffers hold after each point

After the point with reduction step k = t % 8 the accumulator holds, at (p, q), the contraction of row
(t / 16) * 1024 + p of the activations with column ((t / 8) % 2) * 2048 + q of the weights over the first k + 1 blocks
of 512 input rows, and the column holds that row's sum over the same blocks: step 0 starts from zero, every other step
adds its block to what the step before left (the point before it in the grid, same row and column blocks). -/

/-- The contraction over the first `n` blocks of 512. -/
def accSum (r o n : ℕ) : EReal := ∑ kb ∈ Finset.range n, ∑ j ∈ Finset.range 512, Xn V c r (kb * 512 + j) * Wn V c (kb * 512 + j) o
/-- The row sum over the first `n` blocks of 512. -/
def rowSum (r n : ℕ) : EReal := ∑ kb ∈ Finset.range n, ∑ j ∈ Finset.range 512, Xn V c r (kb * 512 + j)

theorem scratch_inv : ∀ (n : ℕ) (hn : n < cfg1.N),
    (∀ (p : Fin 1024) (q : Fin 2048), ((outsAt1 V c n hn).2.1 : S1024x2048.Idx → EReal) (ix2 p q)
        = accSum V c (n / 16 * 1024 + p.val) (n / 8 % 2 * 2048 + q.val) (n % 8 + 1))
    ∧ (∀ p : Fin 1024, ((outsAt1 V c n hn).2.2 : S1024x1.Idx → EReal) (ix2 p (0 : Fin 1)) = rowSum V c (n / 16 * 1024 + p.val) (n % 8 + 1)) := by
  intro n
  induction n with
  | zero =>
    intro hn
    have h0 : (⟨0, hn⟩ : Fin cfg1.N).val % 8 = 0 := rfl
    refine ⟨fun p q => ?_, fun p => ?_⟩
    · rw [acc_first V c ⟨0, hn⟩ h0, pay5_at, pay1_at, zero_add]
      simp only [xblk_at, wblk_at]
      unfold accSum
      rw [Finset.sum_range_one]
      exact Fin.sum_univ_eq_sum_range (fun j => Xn V c (0 / 16 * 1024 + p.val) (0 % 8 * 512 + j) * Wn V c (0 % 8 * 512 + j) (0 / 8 % 2 * 2048 + q.val)) 512
    · rw [xsum_first V c ⟨0, hn⟩ h0, pay4_at, pay2_at, zero_add]
      simp only [xblk_at]
      unfold rowSum
      rw [Finset.sum_range_one]
      exact Fin.sum_univ_eq_sum_range (fun j => Xn V c (0 / 16 * 1024 + p.val) (0 % 8 * 512 + j)) 512
  | succ k ih =>
    intro hn
    have hk : k < cfg1.N := Nat.lt_of_succ_lt hn
    by_cases h0 : (k + 1) % 8 = 0
    · have h0' : (⟨k + 1, hn⟩ : Fin cfg1.N).val % 8 = 0 := h0
      refine ⟨fun p q => ?_, fun p => ?_⟩
      · rw [acc_first V c ⟨k + 1, hn⟩ h0', pay5_at, pay1_at, zero_add]
        simp only [xblk_at, wblk_at]
        unfold accSum
        rw [h0, Finset.sum_range_one]
        exact Fin.sum_univ_eq_sum_range (fun j => Xn V c ((k + 1) / 16 * 1024 + p.val) (0 * 512 + j) * Wn V c (0 * 512 + j) ((k + 1) / 8 % 2 * 2048 + q.val)) 512
      · rw [xsum_first V c ⟨k + 1, hn⟩ h0', pay4_at, pay2_at, zero_add]
        simp only [xblk_at]
        unfold rowSum
        rw [h0, Finset.sum_range_one]
        exact Fin.sum_univ_eq_sum_range (fun j => Xn V c ((k + 1) / 16 * 1024 + p.val) (0 * 512 + j)) 512
    · have h0' : ¬ (⟨k + 1, hn⟩ : Fin cfg1.N).val % 8 = 0 := h0
      obtain ⟨ihA, ihX⟩ := ih hk
      have e16 : k / 16 = (k + 1) / 16 := by omega
      have e8 : k / 8 % 2 = (k + 1) / 8 % 2 := by omega
      have em : k % 8 + 1 = (k + 1) % 8 := by omega
      refine ⟨fun p q => ?_, fun p => ?_⟩
      · rw [acc_next V c ⟨k + 1, hn⟩ h0', pay5_at]
        simp only [xblk_at, wblk_at]
        show ((outsAt1 V c k _).2.1 : S1024x2048.Idx → EReal) (ix2 p q) + _ = _
        rw [ihA p q, e16, e8, em]
        unfold accSum
        rw [Finset.sum_range_succ]
        exact congrArg _ (Fin.sum_univ_eq_sum_range (fun j => Xn V c ((k + 1) / 16 * 1024 + p.val) ((k + 1) % 8 * 512 + j) * Wn V c ((k + 1) % 8 * 512 + j) ((k + 1) / 8 % 2 * 2048 + q.val)) 512)
      · rw [xsum_next V c ⟨k + 1, hn⟩ h0', pay4_at]
        simp only [xblk_at]
        show ((outsAt1 V c k _).2.2 : S1024x1.Idx → EReal) (ix2 p (0 : Fin 1)) + _ = _
        rw [ihX p, e16, em]
        unfold rowSum
        rw [Finset.sum_range_succ]
        exact congrArg _ (Fin.sum_univ_eq_sum_range (fun j => Xn V c ((k + 1) / 16 * 1024 + p.val) ((k + 1) % 8 * 512 + j)) 512)

/-! ## The output block at the last reduction step, and the array after the region -/

/-- What the points with k = 7 store: the full contraction minus the row sum times the zero point, scaled, plus the bias. -/
theorem out_at (t : Fin cfg1.N) (h7 : t.val % 8 = 7) (p : Fin 1024) (q : Fin 2048) :
    ((outsAt1 V c t.val t.isLt).1 : S1024x2048.Idx → EReal) (ix2 p q)
      = (accSum V c (t.val / 16 * 1024 + p.val) (t.val / 8 % 2 * 2048 + q.val) 8
          - rowSum V c (t.val / 16 * 1024 + p.val) 8 * Zn V c (t.val / 8 % 2 * 2048 + q.val)) * Sn V c (t.val / 8 % 2 * 2048 + q.val)
        + Bn V c (t.val / 8 % 2 * 2048 + q.val) := by
  obtain ⟨hA, hX⟩ := scratch_inv V c t.val t.isLt
  rw [out_last V c t h7, pay6_at, hA p q, hX p, zrow_at, srow_at, brow_at, h7]

/-- The array region 1 leaves in its output, as one function of the arrays it reads. -/
def G1 : S8192x4096.Idx → EReal := fun i =>
  (accSum V c (i 0).val (i 1).val 8 - rowSum V c (i 0).val 8 * Zn V c (i 1).val) * Sn V c (i 1).val + Bn V c (i 1).val

/-- What a point with k = 7 writes back is its block of `G1`. -/
theorem flushed1_eq (t : Fin cfg1.N) (hf : (cfg1.win 5).flush t = true) :
    (dat1 V c).flushed 5 t = ((cfg1.win 5).blk t).view.read (Elt Ideal) (G1 V c) := by
  have h7 : t.val % 8 = 7 := (flush1_5 t).mp hf
  obtain ⟨-, -, -, -, -, -, -, -, -, -, e0, e1⟩ := idx1_facts t
  show (cfg1.win 5).cut (grid1.coords t) ((dat1 V c).after 5 t) = _
  rw [after1_5]
  funext j
  obtain ⟨p, q, rfl⟩ : ∃ (p : Fin 1024) (q : Fin 2048), j = ix2 p q := ⟨j 0, j 1, eq_ix2 j⟩
  show ((outsAt1 V c t.val t.isLt).1 : S1024x2048.Idx → EReal) (ix2 p q) = G1 V c (((cfg1.win 5).blk t).view.emb (ix2 p q))
  have c0 : ((((cfg1.win 5).blk t).view.emb (ix2 p q)) 0).val = t.val / 16 * 1024 + p.val := by
    show win1_5.index t (0 : Fin 2) * 1024 + 1 * p.val = _; rw [e0]; omega
  have c1 : ((((cfg1.win 5).blk t).view.emb (ix2 p q)) 1).val = t.val / 8 % 2 * 2048 + q.val := by
    show win1_5.index t (1 : Fin 2) * 2048 + 1 * q.val = _; rw [e1]; omega
  rw [out_at V c t h7 p q]
  unfold G1
  rw [c0, c1]

/-- An index of the output array is in point `t`'s block iff each coordinate is in the block's range. -/
theorem mem_blk5 (t : Fin cfg1.N) (i : S8192x4096.Idx) :
    i ∈ ((cfg1.win 5).blk t).view.set ↔ ∀ a : Fin 2, win1_5.index t a * S1024x2048.size a ≤ (i a).val ∧ (i a).val < win1_5.index t a * S1024x2048.size a + S1024x2048.size a := by
  show i ∈ ((View.whole main_v7).slice (win1_5.rect t)).set ↔ _
  rw [View.set_slice_whole, Rect.mem_set_unit]
  exact Iff.rfl

/-- Every index of the output is in the block of a point that writes back: row block i0 / 1024, column block i1 / 2048, k = 7. -/
theorem cover5 (i : S8192x4096.Idx) : ∃ t : Fin cfg1.N, (cfg1.win 5).flush t = true ∧ i ∈ ((cfg1.win 5).blk t).view.set := by
  have hi0 : (i 0).val < 8192 := (i 0).isLt
  have hi1 : (i 1).val < 4096 := (i 1).isLt
  have hlt : 16 * ((i 0).val / 1024) + 8 * ((i 1).val / 2048) + 7 < cfg1.N := by rw [show cfg1.N = 128 from N_1]; omega
  refine ⟨⟨16 * ((i 0).val / 1024) + 8 * ((i 1).val / 2048) + 7, hlt⟩, (flush1_5 _).mpr (by show (16 * ((i 0).val / 1024) + 8 * ((i 1).val / 2048) + 7) % 8 = 7; omega), ?_⟩
  obtain ⟨-, -, -, -, -, -, -, -, -, -, e0, e1⟩ := idx1_facts ⟨16 * ((i 0).val / 1024) + 8 * ((i 1).val / 2048) + 7, hlt⟩
  rw [mem_blk5]
  intro a
  match a with
  | ⟨0, _⟩ =>
    show win1_5.index _ (0 : Fin 2) * 1024 ≤ (i 0).val ∧ (i 0).val < win1_5.index _ (0 : Fin 2) * 1024 + 1024
    rw [e0]; show (16 * ((i 0).val / 1024) + 8 * ((i 1).val / 2048) + 7) / 16 * 1024 ≤ (i 0).val ∧ (i 0).val < (16 * ((i 0).val / 1024) + 8 * ((i 1).val / 2048) + 7) / 16 * 1024 + 1024
    omega
  | ⟨1, _⟩ =>
    show win1_5.index _ (1 : Fin 2) * 2048 ≤ (i 1).val ∧ (i 1).val < win1_5.index _ (1 : Fin 2) * 2048 + 2048
    rw [e1]; show (16 * ((i 0).val / 1024) + 8 * ((i 1).val / 2048) + 7) / 8 % 2 * 2048 ≤ (i 1).val ∧ (i 1).val < (16 * ((i 0).val / 1024) + 8 * ((i 1).val / 2048) + 7) / 8 % 2 * 2048 + 2048
    omega

/-- THE ARRAY after region 1: `G1` of the arrays the region reads. -/
theorem final1 : (dat1 V c).arrAt 5 cfg1.N = G1 V c :=
  (dat1 V c).arrAt_eq_of_cover 5 (G1 V c) (fun t hf => flushed1_eq V c t hf) (cover5)

/-! ## The eight blocks of 512 are the 4096 input rows -/

theorem accSum_full (r o : ℕ) : accSum V c r o 8 = ∑ k : Fin 4096, Xn V c r k.val * Wn V c k.val o := by
  unfold accSum
  rw [← Cert.Dequant.sum_blocks (fun k : Fin 4096 => Xn V c r k.val * Wn V c k.val o), ← Fin.sum_univ_eq_sum_range (fun kb => ∑ j ∈ Finset.range 512, Xn V c r (kb * 512 + j) * Wn V c (kb * 512 + j) o) 8]
  refine Finset.sum_congr rfl fun kb _ => ?_
  exact (Fin.sum_univ_eq_sum_range (fun j => Xn V c r (kb.val * 512 + j) * Wn V c (kb.val * 512 + j) o) 512).symm

theorem rowSum_full (r : ℕ) : rowSum V c r 8 = ∑ k : Fin 4096, Xn V c r k.val := by
  unfold rowSum
  rw [← Cert.Dequant.sum_blocks (fun k : Fin 4096 => Xn V c r k.val), ← Fin.sum_univ_eq_sum_range (fun kb => ∑ j ∈ Finset.range 512, Xn V c r (kb * 512 + j)) 8]
  refine Finset.sum_congr rfl fun kb _ => ?_
  exact (Fin.sum_univ_eq_sum_range (fun j => Xn V c r (kb.val * 512 + j)) 512).symm

end Cert.KernelIdeal.Hand

end
-- ==== Proof.KI.Result.lean ====
import proofs.«404820_j10101763080230_2_alg».proof.Proof.Gen.KernelIdeal.Launch
import proofs.«404820_j10101763080230_2_alg».proof.Proof.Gen.KernelIdeal.Skeleton
import proofs.«404820_j10101763080230_2_alg».proof.Proof.Gen.KernelIdeal.Points
import proofs.«404820_j10101763080230_2_alg».proof.Proof.KI.Entry
import proofs.«404820_j10101763080230_2_alg».proof.Proof.KI.Value0
import proofs.«404820_j10101763080230_2_alg».proof.Proof.KI.Value1
import proofs.«404820_j10101763080230_2_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The result buffer, index by index

@main reshapes the activations to [8192, 4096] (row b * 2048 + s), runs the unpack region, which leaves the weights
`wreal q k o` in its output array, reshapes scales, zeros / scales rounded, and bias to rows, runs the matmul region,
which leaves `G1` of those arrays, and reshapes that back to [4, 2048, 4096]. Read at (b, s, o) this is the factored
layer `Kat` of the five inputs. -/

variable (m : (ℓ : Loc nD τ sig) → Buf (Elt Ideal) ℓ)

/-- Core `c`'s buffers when region 0 is entered. -/
abbrev E1 : (c : Dev nD) → (b : Ref sig .tc) → Buf (Elt Ideal) ((c : Thread nD τ).loc b) := fun c b => Gen.V1 m c b
/-- Core `c`'s buffers when region 1 is entered, region 0 having left `oA`. -/
abbrev E5 (oA : Gen.Outs (F := Ideal)) : (c : Dev nD) → (b : Ref sig .tc) → Buf (Elt Ideal) ((c : Thread nD τ).loc b) := fun c b => Gen.V5 m oA c b

variable (oA : Gen.Outs (F := Ideal)) (c : Dev nD)

theorem Xn_entry (b : Fin 4) (s : Fin 2048) (k : Fin 4096) :
    Xn (E5 m oA) c (b.val * 2048 + s.val) k.val
      = (m ((c : Thread nD τ).loc main_arg0) : S4x2048x4096.Idx → EReal) (ix3 b s k) := by
  have hr : b.val * 2048 + s.val < 8192 := by have := b.isLt; have := s.isLt; omega
  unfold Xn; rw [dif_pos ⟨hr, k.isLt⟩]
  show (Gen.V5 m oA c main_v0 : S8192x4096.Idx → EReal) (ix2 (⟨b.val * 2048 + s.val, hr⟩ : Fin 8192) (⟨k.val, k.isLt⟩ : Fin 4096)) = _
  rw [V5_v0_at]
  refine congrArg _ (funext fun a => Fin.ext ?_)
  match a with
  | ⟨0, _⟩ => show (b.val * 2048 + s.val) / 2048 = b.val; have := s.isLt; omega
  | ⟨1, _⟩ => show (b.val * 2048 + s.val) % 2048 = s.val; have := s.isLt; omega
  | ⟨2, _⟩ => rfl

theorem Wn_entry (h1 : oA 2 main_v1 c = (dat0 (E1 m) c).arrAt 1 cfg0.N) (k o : Fin 4096) :
    Wn (E5 m oA) c k.val o.val = Cert.Dequant.wreal (m ((c : Thread nD τ).loc main_arg1)) k o := by
  unfold Wn; rw [dif_pos ⟨k.isLt, o.isLt⟩]
  show (Gen.V5 m oA c main_v1 : S4096x4096.Idx → EReal) (ix2 (⟨k.val, k.isLt⟩ : Fin 4096) (⟨o.val, o.isLt⟩ : Fin 4096)) = _
  rw [V5_v1, h1, final0]
  show Cert.Dequant.wreal (Gen.V1 m c main_arg1) k o = _
  rw [V1_arg1]

theorem Sn_entry (o : Fin 4096) :
    Sn (E5 m oA) c o.val = Cert.Dequant.scl (m ((c : Thread nD τ).loc main_arg2)) o := by
  unfold Sn; rw [dif_pos o.isLt]
  show (Gen.V5 m oA c main_v2 : S1x4096.Idx → EReal) (ix2 (0 : Fin 1) (⟨o.val, o.isLt⟩ : Fin 4096)) = _
  rw [V5_v2_at]; rfl

theorem Zn_entry (o : Fin 4096) :
    Zn (E5 m oA) c o.val = Cert.Dequant.zpt (m ((c : Thread nD τ).loc main_arg2)) (m ((c : Thread nD τ).loc main_arg3)) o := by
  unfold Zn; rw [dif_pos o.isLt]
  show (Gen.V5 m oA c main_v5 : S1x4096.Idx → EReal) (ix2 (0 : Fin 1) (⟨o.val, o.isLt⟩ : Fin 4096)) = _
  rw [V5_v5_at]; rfl

theorem Bn_entry (o : Fin 4096) :
    Bn (E5 m oA) c o.val = (m ((c : Thread nD τ).loc main_arg4) : S4096.Idx → EReal) (ix1 o) := by
  unfold Bn; rw [dif_pos o.isLt]
  show (Gen.V5 m oA c main_v6 : S1x4096.Idx → EReal) (ix2 (0 : Fin 1) (⟨o.val, o.isLt⟩ : Fin 4096)) = _
  rw [V5_v6_at]

/-- THE KERNEL'S RESULT at (b, s, o), for any record of what the regions leave that agrees with their final arrays. -/
theorem kernel_value (oF : Gen.Outs (F := Ideal))
    (h1 : oA 2 main_v1 c = (dat0 (E1 m) c).arrAt 1 cfg0.N)
    (h7 : oF 6 main_v7 c = (dat1 (E5 m oA) c).arrAt 5 cfg1.N)
    (b : Fin 4) (s : Fin 2048) (o : Fin 4096) :
    (Gen.V7 m oF c main_v8 : S4x2048x4096.Idx → EReal) (ix3 b s o)
      = Cert.Dequant.Kat (m ((c : Thread nD τ).loc main_arg0)) (m ((c : Thread nD τ).loc main_arg1)) (m ((c : Thread nD τ).loc main_arg2))
          (m ((c : Thread nD τ).loc main_arg3)) (m ((c : Thread nD τ).loc main_arg4)) b s o := by
  rw [V7_v8_at, h7, final1]
  show (accSum (E5 m oA) c (b.val * 2048 + s.val) o.val 8 - rowSum (E5 m oA) c (b.val * 2048 + s.val) 8 * Zn (E5 m oA) c o.val) * Sn (E5 m oA) c o.val
      + Bn (E5 m oA) c o.val = _
  rw [accSum_full, rowSum_full, Zn_entry, Sn_entry, Bn_entry]
  unfold Cert.Dequant.Kat
  simp only [Xn_entry, Wn_entry m oA c h1]

end Cert.KernelIdeal.Hand

end
-- ==== Proof.RefG.lean ====
/-
  The reference program computes the specification `G`, index by index, over the extended reals.

  The reference unpacks each packed word q[r, o] into its low nibble (q & 15) and the nibble above it ((q >> 4) & 15),
  stacks the two on a new middle axis of extent two and flattens [2048, 2, 4096] to [4096, 4096], so that row k of the
  unpacked matrix comes from packed row k / 2 with middle coordinate k % 2: an even row reads the low nibble, an odd row
  the next one. That is `nib`. The unpacked word is read as a signed integer (`wreal`), the per-column zero point
  round-half-even (zeros[o] / scales[o]) is subtracted (`zpt`), the per-column scale multiplies (`scl`), the contraction
  with x runs over the 4096 input rows and the bias of the column is added: `Gat`.
-/
import proofs.«404820_j10101763080230_2_alg».proof.Proof.Spec
import proofs.«404820_j10101763080230_2_alg».proof.Proof.Gen.ReferenceIdeal.Read
import Idealize.ShloMosaic.Lib.ValueIdx
import Idealize.ShloMosaic.Lib.Pipeline.Value
import Idealize.ShloMosaic.PureOps.Ideal

noncomputable section

open scoped BigOperators

namespace Cert.ReferenceIdeal.RefValue

open Cert.ReferenceIdeal Cert.ReferenceIdeal.Gen Cert.ReferenceIdeal.Read Idealize.ShloMosaic Idealize.ShloMosaic.ValueIdx Cert.Dequant

/-! ## The index maps of the layout operations, at explicit coordinates -/

/-- Dropping the middle unit axis of [2048, 1, 4096] (the low-nibble piece of the stack). -/
theorem drop_mid_low (r : Fin 2048) (o : Fin 4096) : idx_main_v6 (ix3 r (0 : Fin 1) o) = ix2 r o :=
  funext fun a => Fin.ext (by match a with | ⟨0, _⟩ => rfl | ⟨1, _⟩ => rfl)

/-- Dropping the middle unit axis of [2048, 1, 4096] (the next-nibble piece of the stack). -/
theorem drop_mid_high (r : Fin 2048) (o : Fin 4096) : idx_main_v7 (ix3 r (0 : Fin 1) o) = ix2 r o :=
  funext fun a => Fin.ext (by match a with | ⟨0, _⟩ => rfl | ⟨1, _⟩ => rfl)

/-- A per-column row vector [1, 4096] broadcast down the 4096 rows, then transposed back to the column [4096, 1]:
    entry (k, o) reads the column's entry (o, 0). -/
theorem col_of_zero_point (k o : Fin 4096) : idx_main_v13 (idx_main_v14 (ix2 k o)) = ix2 o (0 : Fin 1) :=
  funext fun a => Fin.ext (by match a with | ⟨0, _⟩ => rfl | ⟨1, _⟩ => rfl)

/-- The same for the scales. -/
theorem col_of_scale (k o : Fin 4096) : idx_main_v16 (idx_main_v17 (ix2 k o)) = ix2 o (0 : Fin 1) :=
  funext fun a => Fin.ext (by match a with | ⟨0, _⟩ => rfl | ⟨1, _⟩ => rfl)

/-- The bias [4096] broadcast to [1, 1, 4096] and then to [4, 2048, 4096]: entry (b, s, o) reads bias[o]. -/
theorem col_of_bias (b : Fin 4) (s : Fin 2048) (o : Fin 4096) : idx_main_v20 (idx_main_v21 (ix3 b s o)) = ix1 o :=
  funext fun a => Fin.ext (by match a with | ⟨0, _⟩ => rfl)

/-- The contraction's left index: x at (b, s, k). -/
theorem contr_left (b : Fin 4) (s : Fin 2048) (o k : Fin 4096) : lidx_main_v19 (ix3 b s o) k = ix3 b s k :=
  funext fun a => Fin.ext (by match a with | ⟨0, _⟩ => rfl | ⟨1, _⟩ => rfl | ⟨2, _⟩ => rfl)

/-- The contraction's right index: the dequantized weight at (k, o). -/
theorem contr_right (b : Fin 4) (s : Fin 2048) (o k : Fin 4096) : ridx_main_v19 (ix3 b s o) k = ix2 k o :=
  funext fun a => Fin.ext (by match a with | ⟨0, _⟩ => rfl | ⟨1, _⟩ => rfl)

/-- Row `k`, column `o` of the unpacked weight matrix is the nibble `nib q k o`: flattening [2048, 2, 4096] sends
    (k, o) to packed row k / 2, middle coordinate k % 2, column o; the middle coordinate chooses the piece of the
    stack, the low nibbles (k even) or the next nibbles (k odd). -/
theorem weight_at (x1 : (⟨S2048x4096, .i32⟩ : BufTy).Contents (Elt Ideal)) (k o : Fin 4096) :
    val_main_v9 (F := Ideal) x1 (ix2 k o) = nib x1 k o := by
  have hk := k.isLt
  have ho := o.isLt
  rw [val_main_v9_apply]
  unfold val_main_v8 nib
  by_cases hpar : k.val % 2 = 0
  · -- an even row: middle coordinate 0, the first piece of the stack
    rw [if_pos hpar]
    rw [concatenate_pair_apply_left (1 : Fin S2048x2x4096.rank) (val_main_v6 (F := Ideal) x1) (val_main_v7 (F := Ideal) x1)
      concatenates_S2048x1x4096_S2048x1x4096_S2048x2x4096_d1 (idx_main_v9 (ix2 k o)) rfl
      (ix3 (half k) (0 : Fin 1) o)
      (fun b => by
        match b with
        | ⟨0, _⟩ => show k.val / 2 = (k.val * 4096 + o.val) / 8192; omega
        | ⟨1, _⟩ => show 0 = (k.val * 4096 + o.val) / 4096 % 2; omega
        | ⟨2, _⟩ => show o.val = (k.val * 4096 + o.val) % 4096; omega)]
    rw [val_main_v6_apply, val_main_v1_apply, val_main_v0_apply, val_main_c_apply, drop_mid_low]
  · -- an odd row: middle coordinate 1, the second piece, one past the first piece's single slot
    rw [if_neg hpar]
    rw [concatenate_pair_apply_right (1 : Fin S2048x2x4096.rank) (val_main_v6 (F := Ideal) x1) (val_main_v7 (F := Ideal) x1)
      concatenates_S2048x1x4096_S2048x1x4096_S2048x2x4096_d1 (idx_main_v9 (ix2 k o)) rfl rfl
      (ix3 (half k) (0 : Fin 1) o)
      (fun b hb => by
        match b with
        | ⟨0, _⟩ => show k.val / 2 = (k.val * 4096 + o.val) / 8192; omega
        | ⟨1, _⟩ => exact absurd rfl hb
        | ⟨2, _⟩ => show o.val = (k.val * 4096 + o.val) % 4096; omega)
      (by show 0 + 1 = (k.val * 4096 + o.val) / 4096 % 2; omega)]
    rw [val_main_v7_apply, val_main_v5_apply, val_main_v3_apply, val_main_v2_apply, val_main_c_0_apply,
      val_main_v4_apply, val_main_c_1_apply]
    -- a shift by four is below the word's width of 32, so the shift is the arithmetic shift by four
    show IntOp.andi (IntOp.shrsi .host (x1 (idx_main_v7 (ix3 (half k) (0 : Fin 1) o))) 4#32) 15#32 = _
    unfold IntOp.shrsi
    rw [if_pos (by decide), drop_mid_high]

/-- The zero point subtracted at row `k`, column `o` is the column's: round-half-even of zeros[o] / scales[o]. -/
theorem zero_point_at (x2 x3 : (⟨S4096x1, .f32⟩ : BufTy).Contents (Elt Ideal)) (k o : Fin 4096) :
    val_main_v14 (F := Ideal) x2 x3 (ix2 k o) = zpt x2 x3 o := by
  rw [val_main_v14_apply, val_main_v13_apply, val_main_v11_apply, val_main_v10_apply, col_of_zero_point,
    Ideal.hostUnary_roundeven_def, Ideal.hostDivf_def]
  rfl

/-- The scale multiplied at row `k`, column `o` is the column's. -/
theorem scale_at (x2 : (⟨S4096x1, .f32⟩ : BufTy).Contents (Elt Ideal)) (k o : Fin 4096) :
    val_main_v17 (F := Ideal) x2 (ix2 k o) = scl x2 o := by
  rw [val_main_v17_apply, val_main_v16_apply, col_of_scale]
  rfl

/-- The bias added at (b, s, o) is the column's. -/
theorem bias_at (x4 : (⟨S4096, .f32⟩ : BufTy).Contents (Elt Ideal)) (b : Fin 4) (s : Fin 2048) (o : Fin 4096) :
    val_main_v21 (F := Ideal) x4 (ix3 b s o) = x4 (ix1 o) := by
  rw [val_main_v21_apply, val_main_v20_apply, col_of_bias]

/-- The dequantized weight at row `k`, column `o`: (w[k, o] - zp[o]) * scales[o]. -/
theorem dequant_at (x1 : (⟨S2048x4096, .i32⟩ : BufTy).Contents (Elt Ideal))
    (x2 x3 : (⟨S4096x1, .f32⟩ : BufTy).Contents (Elt Ideal)) (k o : Fin 4096) :
    val_main_v18 (F := Ideal) x1 x2 x3 (ix2 k o) = (wreal x1 k o - zpt x2 x3 o) * scl x2 o := by
  rw [val_main_v18_apply, val_main_v15_apply, val_main_v12_apply, weight_at, zero_point_at, scale_at,
    Ideal.mulf_def, Ideal.subf_def]
  rfl

/-- The reference's result is the specification: at (b, s, o), the contraction over the 4096 input rows of x[b, s, k]
    times the dequantized weight at (k, o), plus bias[o]. -/
theorem ref_eq_G (x0 : (⟨S4x2048x4096, .f32⟩ : BufTy).Contents (Elt Ideal)) (x1 : (⟨S2048x4096, .i32⟩ : BufTy).Contents (Elt Ideal))
    (x2 x3 : (⟨S4096x1, .f32⟩ : BufTy).Contents (Elt Ideal)) (x4 : (⟨S4096, .f32⟩ : BufTy).Contents (Elt Ideal)) :
    Cert.ReferenceIdeal.Read.val_main_v22 (F := Ideal) x0 x1 x2 x3 x4 = Cert.Dequant.G x0 x1 x2 x3 x4 := by
  funext i
  obtain ⟨b, s, o, rfl⟩ : ∃ (b : Fin 4) (s : Fin 2048) (o : Fin 4096), i = ix3 b s o := ⟨i 0, i 1, i 2, eq_ix3 i⟩
  rw [val_main_v22_apply, val_main_v19_apply, bias_at, Ideal.addf_def]
  show _ = Gat x0 x1 x2 x3 x4 b s o
  unfold Gat
  congr 1
  refine Finset.sum_congr rfl fun k _ => ?_
  rw [contr_left, contr_right, dequant_at]

end Cert.ReferenceIdeal.RefValue

end
-- ==== Proof.Finite.lean ====
/-
  From the precondition on the inputs to "every entry is a real number".

  The precondition is the conjunction, over the four float arrays, of "every entry a has |a| < +∞", each conjunct
  computed as a reduction by "and" of the entrywise comparisons. Read at the extended reals, |a| is max a (-a) and the
  constant compared against is the top element, so a conjunct that comes out true says max a (-a) < ⊤ at every entry.
  Neither infinity satisfies that (for both, max a (-a) = ⊤), so every entry is the image of a real number.
-/
import proofs.«404820_j10101763080230_2_alg».proof.Pre_finite_inputs
import Idealize.ShloMosaic.Lib.ReduceAll
import Idealize.ShloMosaic.Lib.ValueIdx
import Idealize.ShloMosaic.PureOps.Ideal
import Mathlib.Data.EReal.Basic
import Mathlib.Data.EReal.Operations

noncomputable section

namespace Cert.Pre_finite_inputs.Finite

open Cert.Pre_finite_inputs Idealize.ShloMosaic

/-- The result shape of a reduction over all axes has exactly one index. -/
instance : Subsingleton S_.Idx := ⟨fun a b => funext fun d => d.elim0⟩

/-- The constant the precondition compares against, the bit pattern of +∞, denotes the top element. -/
theorem inf_bits : Ideal.ofBits .f32 0x7F800000#32 = (⊤ : EReal) := by
  simp [Ideal.ofBits, Ideal.ieee]

/-- An extended real whose absolute value max a (-a) is below +∞ is a real number. -/
theorem real_of_abs_lt (a : EReal)
    (h : Ideal.cmp .olt (max a (-a)) (Ideal.ofBits .f32 0x7F800000#32) = 1#1) : ∃ r : ℝ, a = (r : EReal) := by
  rw [inf_bits] at h
  -- The comparison is the order's: it is true exactly when max a (-a) < ⊤.
  have hlt : max a (-a) < ⊤ := by
    by_contra hn
    simp [Ideal.cmp, hn] at h
  -- At -∞ the maximum is -(-∞) = +∞, at +∞ it is +∞: both contradict hlt.
  induction a using EReal.rec with
  | bot => simp at hlt
  | coe r => exact ⟨r, rfl⟩
  | top => simp at hlt

theorem finite_of_pre [Cert.Pre_finite_inputs.Facts] (x : FVec Ideal S4x2048x4096 .f32) (q : IVec S2048x4096 32) (sc zs : FVec Ideal S4096x1 .f32) (b : FVec Ideal S4096 .f32)
    (h : Cert.Pre_finite_inputs.fn (F := Ideal) x q sc zs b = (fun _ => 1#1)) :
    (∀ i, ∃ r : ℝ, x i = (r : EReal)) ∧ (∀ i, ∃ r : ℝ, sc i = (r : EReal)) ∧ (∀ i, ∃ r : ℝ, zs i = (r : EReal)) := by
  have h0 := congrFun h ValueIdx.ix0
  dsimp only [fn, fn_part1, andi] at h0
  -- The four conjuncts, one per float array.
  rw [IntOp.andi_eq_one, IntOp.andi_eq_one, IntOp.andi_eq_one] at h0
  obtain ⟨⟨⟨hx, hsc⟩, hzs⟩, _⟩ := h0
  -- Each conjunct is a reduction by "and" over all axes: it is true only if every entrywise comparison is.
  refine ⟨fun i => real_of_abs_lt (x i) ?_, fun i => real_of_abs_lt (sc i) ?_, fun i => real_of_abs_lt (zs i) ?_⟩
  · exact Host.reduce_andi_all _ _ _ _ _ hx i
  · exact Host.reduce_andi_all _ _ _ _ _ hsc i
  · exact Host.reduce_andi_all _ _ _ _ _ hzs i

end Cert.Pre_finite_inputs.Finite

end
-- ==== Proof.lean ====
/-
  The five claims of this certificate.

  The kernel computes, over the extended reals, y[b, s, o] = ((sum_k x[b,s,k] * w[k,o]) - (sum_k x[b,s,k]) * zp[o]) * scale[o] + bias[o]
  with w the unpacked 4-bit weights and zp = round (zeros / scales): a prepass region unpacks two nibbles per packed word into
  an [4096, 4096] array, and a matmul region accumulates the contraction and the row sums over eight blocks of 512 input rows
  in two carried buffers and applies the affine correction at the last block. The reference dequantizes first,
  y = sum_k x * ((w - zp) * scale) + bias. The two agree on finite inputs: where the scale is zero both reduce to the bias
  (anything times zero is zero in the extended reals, whatever zp is), elsewhere zp is a real and the law is the reals'
  distributivity.

  Frames: both kernel programs run their two regions to the end with every argument array unchanged; the reference's frame
  is its run with the result dropped. The idealization rewrote nothing, so the preservation claim is the true proposition.
-/
import proofs.«404820_j10101763080230_2_alg».proof.Defs
import proofs.«404820_j10101763080230_2_alg».proof.Proof.Gen.Kernel
import proofs.«404820_j10101763080230_2_alg».proof.Proof.Gen.KernelIdeal
import proofs.«404820_j10101763080230_2_alg».proof.Proof.Gen.ReferenceIdeal
import proofs.«404820_j10101763080230_2_alg».proof.Proof.Gen.ReferenceIdeal.Run
import proofs.«404820_j10101763080230_2_alg».proof.Proof.Gen.ReferenceIdeal.Read
import proofs.«404820_j10101763080230_2_alg».proof.Proof.Gen.Pre_finite_inputs
import proofs.«404820_j10101763080230_2_alg».proof.Proof.KB.Run
import proofs.«404820_j10101763080230_2_alg».proof.Proof.KI.Run
import proofs.«404820_j10101763080230_2_alg».proof.Proof.KI.Result
import proofs.«404820_j10101763080230_2_alg».proof.Proof.RefG
import proofs.«404820_j10101763080230_2_alg».proof.Proof.Algebra
import proofs.«404820_j10101763080230_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result buffer is the dequantize-first layer of its inputs: the factored form it computes
    (`kernel_value`) is that layer where the inputs are finite (`Kat_eq_Gat`). -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Gen.V7 m (Cert.KernelIdeal.Hand.outs m) c Cert.KernelIdeal.main_v8
      = Cert.Dequant.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  obtain ⟨hx, hs, hz⟩ := Cert.Pre_finite_inputs.Finite.finite_of_pre _ _ _ _ _ (hpre c)
  funext i
  obtain ⟨b, s, o, rfl⟩ : ∃ (b : Fin 4) (s : Fin 2048) (o : Fin 4096), i = ix3 b s o := ⟨i 0, i 1, i 2, eq_ix3 i⟩
  refine (Cert.KernelIdeal.Hand.kernel_value m (Cert.KernelIdeal.Hand.outsA m) c (Cert.KernelIdeal.Hand.outs m)
    (Cert.KernelIdeal.Hand.outsA_v1 m 2 c) (Cert.KernelIdeal.Hand.outs_v7 m c) b s o).trans ?_
  exact Cert.Dequant.Kat_eq_Gat _ _ _ _ _ hx hs hz b s o

theorem algebraic : Cert.algebraic_KernelIdeal_ReferenceIdeal := by
  intro m ρ m' ρ' hpre hagree
  refine ⟨fun c => Cert.Dequant.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_result m hpre c), (h c).2⟩)
      (Cert.KernelIdeal.Hand.result_mem m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, Cert.ReferenceIdeal.RefValue.ref_eq_G,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
